-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S128x64x512 .f32 .bf16
  ∧ IdealRules.truncf_extf.Statement Cert.KernelIdeal.S128x512 .f32 .bf16
  ∧ IdealRules.truncf_extf.Statement Cert.KernelIdeal.S128x64x128 .f32 .bf16
  ∧ IdealRules.truncf_extf.Statement Cert.KernelIdeal.S128x128 .f32 .bf16
  ∧ IdealRules.sign_bit.Statement Cert.KernelIdeal.S128x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S400x400 : Shape := ⟨2, ![400, 400]⟩
abbrev S100x100 : Shape := ⟨2, ![100, 100]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S400x400 : S_.BroadcastsInDim S400x400 (![] : Fin 0 → Fin S400x400.rank)
  reducesTo_S400x400_S_d0_1 : S400x400.ReducesTo [0, 1] S_
  bcast_S_S100x100 : S_.BroadcastsInDim S100x100 (![] : Fin 0 → Fin S100x100.rank)
  reducesTo_S100x100_S_d0_1 : S100x100.ReducesTo [0, 1] S_

variable [Facts]

def fn_part1 {F : FTy → Type} [FloatOps F] (main_arg1 : IVec S16384x1024 32) (main_v13 : IVec S_ 1) (main_v15 : IVec S16384x1024 1) (main_c_5 : IVec S_ 1) : IVec S_ 1 :=
  let main_v16 : IVec S_ 1 := (fun x v => Host.reduce IntOp.andi x v reducesTo_S16384x1024_S_d0_1 h_S_) main_v15 main_c_5
  let main_v17 : IVec S_ 1 := andi main_v13 main_v16
  let main_c_6 : IVec S_ 32 := constantI S_ 32 0#32
  let main_v18 : IVec S16384x1024 32 := broadcastInDim S16384x1024 ![] bcast_S_S16384x1024 main_c_6
  let main_v19 : IVec S16384x1024 1 := cmpi .sge main_arg1 main_v18
  let main_c_7 : IVec S_ 1 := constantI S_ 1 1#1
  let main_v20 : IVec S_ 1 := (fun x v => Host.reduce IntOp.andi x v reducesTo_S16384x1024_S_d0_1 h_S_) main_v19 main_c_7
  let main_v21 : IVec S_ 1 := andi main_v17 main_v20
  main_v21

def fn {F : FTy → Type} [FloatOps F] (main_arg0 : IVec S16384x1024 32) (main_arg1 : IVec S16384x1024 32) (main_arg2 : FVec F S16384x1024 .f32) (main_arg3 : IVec S16384 32) (main_arg4 : FVec F S400x400 .f32) (main_arg5 : FVec F S100x100 .f32) : IVec S_ 1 :=
  let main_v0 : FVec F S16384x1024 .f32 := Host.absf main_arg2
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S400x400 .f32 := Host.absf main_arg4
  let main_cst_0 : FVec F S_ .f32 := constant S_ .f32 0x7F800000#32
  let main_v5 : FVec F S400x400 .f32 := broadcastInDim S400x400 ![] bcast_S_S400x400 main_cst_0
  let main_v6 : IVec S400x400 1 := cmpf .olt main_v4 main_v5
  let main_c_1 : IVec S_ 1 := constantI S_ 1 1#1
  let main_v7 : IVec S_ 1 := (fun x v => Host.reduce IntOp.andi x v reducesTo_S400x400_S_d0_1 h_S_) main_v6 main_c_1
  let main_v8 : IVec S_ 1 := andi main_v3 main_v7
  let main_v9 : FVec F S100x100 .f32 := Host.absf main_arg5
  let main_cst_2 : FVec F S_ .f32 := constant S_ .f32 0x7F800000#32
  let main_v10 : FVec F S100x100 .f32 := broadcastInDim S100x100 ![] bcast_S_S100x100 main_cst_2
  let main_v11 : IVec S100x100 1 := cmpf .olt main_v9 main_v10
  let main_c_3 : IVec S_ 1 := constantI S_ 1 1#1
  let main_v12 : IVec S_ 1 := (fun x v => Host.reduce IntOp.andi x v reducesTo_S100x100_S_d0_1 h_S_) main_v11 main_c_3
  let main_v13 : IVec S_ 1 := andi main_v8 main_v12
  let main_c_4 : IVec S_ 32 := constantI S_ 32 0#32
  let main_v14 : IVec S16384x1024 32 := broadcastInDim S16384x1024 ![] bcast_S_S16384x1024 main_c_4
  let main_v15 : IVec S16384x1024 1 := cmpi .sge main_arg0 main_v14
  let main_c_5 : IVec S_ 1 := constantI S_ 1 1#1
  fn_part1 (F := F) main_arg1 main_v13 main_v15 main_c_5
-- ==== Kernel.lean ====
abbrev S16384x1024 : Shape := ⟨2, ![16384, 1024]⟩
abbrev S16384 : Shape := ⟨1, ![16384]⟩
abbrev S400x400 : Shape := ⟨2, ![400, 400]⟩
abbrev S100x100 : Shape := ⟨2, ![100, 100]⟩
abbrev S16384x1 : Shape := ⟨2, ![16384, 1]⟩
abbrev S_ : Shape := ⟨0, ![]⟩
abbrev S512x512 : Shape := ⟨2, ![512, 512]⟩
abbrev S128x128 : Shape := ⟨2, ![128, 128]⟩
abbrev S16384x768 : Shape := ⟨2, ![16384, 768]⟩
abbrev S128x1024 : Shape := ⟨2, ![128, 1024]⟩
abbrev S128x1 : Shape := ⟨2, ![128, 1]⟩
abbrev S128x768 : Shape := ⟨2, ![128, 768]⟩
abbrev S128x512 : Shape := ⟨2, ![128, 512]⟩
abbrev S128x64 : Shape := ⟨2, ![128, 64]⟩
abbrev S1x1x512 : Shape := ⟨3, ![1, 1, 512]⟩
abbrev S128x64x1 : Shape := ⟨3, ![128, 64, 1]⟩
abbrev S128x64x512 : Shape := ⟨3, ![128, 64, 512]⟩
abbrev S1x1x128 : Shape := ⟨3, ![1, 1, 128]⟩
abbrev S128x64x128 : Shape := ⟨3, ![128, 64, 128]⟩
abbrev S1x64 : Shape := ⟨2, ![1, 64]⟩
abbrev S128 : Shape := ⟨1, ![128]⟩
abbrev S128x127 : Shape := ⟨2, ![128, 127]⟩
abbrev S16384x400 : Shape := ⟨2, ![16384, 400]⟩
abbrev S16384x100 : Shape := ⟨2, ![16384, 100]⟩
abbrev S16384x501 : Shape := ⟨2, ![16384, 501]⟩

abbrev nBuf : Space → Nat
  | .hbm => 18
  | .vmem => 12
  | .smem => 0
  | _ => 0

abbrev bufTy : (tb : Table) → Fin (tcTables nBuf tb) → BufTy
  | .hbm, ⟨0, _⟩ => ⟨S16384x1024, .i32⟩
  | .hbm, ⟨1, _⟩ => ⟨S16384x1024, .i32⟩
  | .hbm, ⟨2, _⟩ => ⟨S16384x1024, .f32⟩
  | .hbm, ⟨3, _⟩ => ⟨S16384, .i32⟩
  | .hbm, ⟨4, _⟩ => ⟨S400x400, .f32⟩
  | .hbm, ⟨5, _⟩ => ⟨S100x100, .f32⟩
  | .hbm, ⟨6, _⟩ => ⟨S16384x1, .i32⟩
  | .hbm, ⟨7, _⟩ => ⟨S_, .i32⟩
  | .hbm, ⟨8, _⟩ => ⟨S_, .f32⟩
  | .hbm, ⟨9, _⟩ => ⟨S512x512, .f32⟩
  | .hbm, ⟨10, _⟩ => ⟨S_, .i32⟩
  | .hbm, ⟨11, _⟩ => ⟨S_, .f32⟩
  | .hbm, ⟨12, _⟩ => ⟨S128x128, .f32⟩
  | .hbm, ⟨13, _⟩ => ⟨S16384x768, .f32⟩
  | .hbm, ⟨14, _⟩ => ⟨S16384x400, .f32⟩
  | .hbm, ⟨15, _⟩ => ⟨S16384x100, .f32⟩
  | .hbm, ⟨16, _⟩ => ⟨S16384x1, .f32⟩
  | .hbm, ⟨17, _⟩ => ⟨S16384x501, .f32⟩
  | .local _ .vmem, ⟨0, _⟩ => ⟨S128x1024, .i32⟩
  | .local _ .vmem, ⟨1, _⟩ => ⟨S128x1024, .i32⟩
  | .local _ .vmem, ⟨2, _⟩ => ⟨S128x1024, .i32⟩
  | .local _ .vmem, ⟨3, _⟩ => ⟨S128x1024, .i32⟩
  | .local _ .vmem, ⟨4, _⟩ => ⟨S128x1024, .f32⟩
  | .local _ .vmem, ⟨5, _⟩ => ⟨S128x1024, .f32⟩
  | .local _ .vmem, ⟨6, _⟩ => ⟨S128x1, .i32⟩
  | .local _ .vmem, ⟨7, _⟩ => ⟨S128x1, .i32⟩
  | .local _ .vmem, ⟨8, _⟩ => ⟨S512x512, .f32⟩
  | .local _ .vmem, ⟨9, _⟩ => ⟨S128x128, .f32⟩
  | .local _ .vmem, ⟨10, _⟩ => ⟨S128x768, .f32⟩
  | .local _ .vmem, ⟨11, _⟩ => ⟨S128x768, .f32⟩
  | _, _ => ⟨S16384x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨1, ![128], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v24 : BitVec 32 := Scalar.muli arg8 c64_i32
  v24
def k0_off1 (k0_t1 : Fin k0_t1_loop.trips) : Fin 2 → Nat :=
  let c0_17 : Index := 0#32
  let c0_i32 : BitVec 32 := 0#32
  let c1_i32 : BitVec 32 := 1#32
  let arg8 : BitVec 32 := Scf.iv c0_i32 c1_i32 k0_t1
  let c64_i32 : BitVec 32 := 64#32
  let v24 : BitVec 32 := Scalar.muli arg8 c64_i32
  let v25 : BitVec 32 := v24
  let v26 : Index := Scalar.indexCast v25
  ![0, v26.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16384_S16384x1 : S16384.ShapeCasts S16384x1
  pads_S400x400_S512x512_01120_01120 : S400x400.Pads (![0, 0] : Fin 2 → Nat) ![112, 112] ![0, 0] S512x512
  h_S_ : 0 < S_.numel
  pads_S100x100_S128x128_0280_0280 : S100x100.Pads (![0, 0] : Fin 2 → Nat) ![28, 28] ![0, 0] S128x128
  h_S128x64 : 0 < S128x64.numel
  iota_S1x1x512_d2_w32 : S1x1x512.Iotas .tc 32 [2]
  shapeCasts_S128x64_S128x64x1 : S128x64.ShapeCasts S128x64x1
  broadcasts_S128x64x1_S128x64x512 : S128x64x1.Broadcasts S128x64x512
  broadcasts_S1x1x512_S128x64x512 : S1x1x512.Broadcasts S128x64x512
  natLt_1_32 : 1 < 32
  bitsLt_bf16_f32 : FTy.bits .bf16 < FTy.bits .f32
  reduces_S128x64x512_S128x512 : S128x64x512.Reduces [1] S128x512
  iota_S1x1x128_d2_w32 : S1x1x128.Iotas .tc 32 [2]
  broadcasts_S128x64x1_S128x64x128 : S128x64x1.Broadcasts S128x64x128
  broadcasts_S1x1x128_S128x64x128 : S1x1x128.Broadcasts S128x64x128
  reduces_S128x64x128_S128x128 : S128x64x128.Reduces [1] S128x128
  iota_S1x64_d1_w32 : S1x64.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S1x64_S128x64 : S1x64.Broadcasts S128x64
  broadcasts_S128x1_S128x64 : S128x1.Broadcasts S128x64
  reduces_S128x64_S128 : S128x64.Reduces [1] S128
  shapeCasts_S128_S128x1 : S128.ShapeCasts S128x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S128x1_S128x127_S128x128_d1 : Shape.Concatenates [S128x1, S128x127] S128x128 1
  inb_S128x768_S128x512_0_0 : ∀ a, (![0, 0] : Fin 2 → Nat) a + S128x512.size a ≤ S128x768.size a
  h_S128x512 : 0 < S128x512.numel
  inb_S128x768_S128x128_0_512 : ∀ a, (![0, 512] : Fin 2 → Nat) a + S128x128.size a ≤ S128x768.size a
  inb_S128x768_S128x128_0_640 : ∀ a, (![0, 640] : Fin 2 → Nat) a + S128x128.size a ≤ S128x768.size a
  slices_S16384x768_S16384x400_0_0 : S16384x768.Slices ![0, 0] S16384x400
  slices_S16384x768_S16384x100_0_512 : S16384x768.Slices ![0, 512] S16384x100
  slices_S16384x768_S16384x1_0_640 : S16384x768.Slices ![0, 640] S16384x1
  concatenates_S16384x400_S16384x100_S16384x1_S16384x501_d1 : Shape.Concatenates [S16384x400, S16384x100, S16384x1] S16384x501 1
  dot_S128x512_S512x512_S128x512_1_0_0_1_n_n_wf : DotDims.WF S128x512 S512x512 S128x512 [1] [0] [0] [1] [] []
  dot_S128x128_S128x128_S128x128_1_0_0_1_n_n_wf : DotDims.WF S128x128 S128x128 S128x128 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S128x64.size a ≤ S128x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .i32 = 32 ∨ (Rect.block (s := S16384x1024) S128x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .i32 = 32 ∨ (Rect.block (s := S16384x1024) S128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S16384x1.size a
  hwx0_3 : ∀ i : grid0.Coords, EltTy.bits .i32 = 32 ∨ (Rect.block (s := S16384x1) S128x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x768.size a ≤ S16384x768.size a
  hwx0_6 : ∀ i : grid0.Coords, EltTy.bits .f32 = 32 ∨ (Rect.block (s := S16384x768) S128x768.size (cc0_transform_6 i) (hinb0_6 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384 : Shape := ⟨1, ![16384]⟩
abbrev S400x400 : Shape := ⟨2, ![400, 400]⟩
abbrev S100x100 : Shape := ⟨2, ![100, 100]⟩
abbrev S16384x1 : Shape := ⟨2, ![16384, 1]⟩
abbrev S_ : Shape := ⟨0, ![]⟩
abbrev S16384x400 : Shape := ⟨2, ![16384, 400]⟩
abbrev S16384x1024x1 : Shape := ⟨3, ![16384, 1024, 1]⟩
abbrev S16384x1024x2 : Shape := ⟨3, ![16384, 1024, 2]⟩
abbrev S16384x100 : Shape := ⟨2, ![16384, 100]⟩
abbrev S1024 : Shape := ⟨1, ![1024]⟩
abbrev S1x1024 : Shape := ⟨2, ![1, 1024]⟩
abbrev S16384x501 : Shape := ⟨2, ![16384, 501]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .i32⟩
  | .hbm, ⟨1, _⟩ => ⟨S16384x1024, .i32⟩
  | .hbm, ⟨2, _⟩ => ⟨S16384x1024, .f32⟩
  | .hbm, ⟨3, _⟩ => ⟨S16384, .i32⟩
  | .hbm, ⟨4, _⟩ => ⟨S400x400, .f32⟩
  | .hbm, ⟨5, _⟩ => ⟨S100x100, .f32⟩
  | .hbm, ⟨6, _⟩ => ⟨S16384, .i32⟩
  | .hbm, ⟨7, _⟩ => ⟨S16384x1, .i32⟩
  | .hbm, ⟨8, _⟩ => ⟨S_, .f32⟩
  | .hbm, ⟨9, _⟩ => ⟨S16384x400, .f32⟩
  | .hbm, ⟨10, _⟩ => ⟨S_, .i32⟩
  | .hbm, ⟨11, _⟩ => ⟨S16384x1, .i32⟩
  | .hbm, ⟨12, _⟩ => ⟨S16384x1, .i1⟩
  | .hbm, ⟨13, _⟩ => ⟨S_, .i32⟩
  | .hbm, ⟨14, _⟩ => ⟨S16384x1, .i32⟩
  | .hbm, ⟨15, _⟩ => ⟨S16384x1, .i32⟩
  | .hbm, ⟨16, _⟩ => ⟨S16384x1, .i32⟩
  | .hbm, ⟨17, _⟩ => ⟨S_, .i32⟩
  | .hbm, ⟨18, _⟩ => ⟨S16384x1024, .i32⟩
  | .hbm, ⟨19, _⟩ => ⟨S16384x1024, .i1⟩
  | .hbm, ⟨20, _⟩ => ⟨S_, .i32⟩
  | .hbm, ⟨21, _⟩ => ⟨S16384x1024, .i32⟩
  | .hbm, ⟨22, _⟩ => ⟨S16384x1024, .i32⟩
  | .hbm, ⟨23, _⟩ => ⟨S16384x1024, .i32⟩
  | .hbm, ⟨24, _⟩ => ⟨S16384x1024, .i32⟩
  | .hbm, ⟨25, _⟩ => ⟨S16384x1024x1, .i32⟩
  | .hbm, ⟨26, _⟩ => ⟨S16384x1024x1, .i32⟩
  | .hbm, ⟨27, _⟩ => ⟨S16384x1024x2, .i32⟩
  | .hbm, ⟨28, _⟩ => ⟨S_, .f32⟩
  | .hbm, ⟨29, _⟩ => ⟨S16384x1024, .f32⟩
  | .hbm, ⟨30, _⟩ => ⟨S16384x400, .f32⟩
  | .hbm, ⟨31, _⟩ => ⟨S16384x400, .f32⟩
  | .hbm, ⟨32, _⟩ => ⟨S16384, .i32⟩
  | .hbm, ⟨33, _⟩ => ⟨S16384x1, .i32⟩
  | .hbm, ⟨34, _⟩ => ⟨S_, .f32⟩
  | .hbm, ⟨35, _⟩ => ⟨S16384x100, .f32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S_, .i32⟩
  | .hbm, ⟨40, _⟩ => ⟨S16384x1, .i32⟩
  | .hbm, ⟨41, _⟩ => ⟨S16384x1, .i32⟩
  | .hbm, ⟨42, _⟩ => ⟨S16384x1, .i32⟩
  | .hbm, ⟨43, _⟩ => ⟨S_, .i32⟩
  | .hbm, ⟨44, _⟩ => ⟨S16384x1024, .i32⟩
  | .hbm, ⟨45, _⟩ => ⟨S16384x1024, .i1⟩
  | .hbm, ⟨46, _⟩ => ⟨S_, .i32⟩
  | .hbm, ⟨47, _⟩ => ⟨S16384x1024, .i32⟩
  | .hbm, ⟨48, _⟩ => ⟨S16384x1024, .i32⟩
  | .hbm, ⟨49, _⟩ => ⟨S16384x1024, .i32⟩
  | .hbm, ⟨50, _⟩ => ⟨S16384x1024, .i32⟩
  | .hbm, ⟨51, _⟩ => ⟨S16384x1024x1, .i32⟩
  | .hbm, ⟨52, _⟩ => ⟨S16384x1024x1, .i32⟩
  | .hbm, ⟨53, _⟩ => ⟨S16384x1024x2, .i32⟩
  | .hbm, ⟨54, _⟩ => ⟨S_, .f32⟩
  | .hbm, ⟨55, _⟩ => ⟨S16384x1024, .f32⟩
  | .hbm, ⟨56, _⟩ => ⟨S16384x100, .f32⟩
  | .hbm, ⟨57, _⟩ => ⟨S16384x100, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1024, .i32⟩
  | .hbm, ⟨63, _⟩ => ⟨S1x1024, .i32⟩
  | .hbm, ⟨64, _⟩ => ⟨S16384x1, .i32⟩
  | .hbm, ⟨65, _⟩ => ⟨S16384x1024, .i32⟩
  | .hbm, ⟨66, _⟩ => ⟨S16384x1024, .i32⟩
  | .hbm, ⟨67, _⟩ => ⟨S16384x1024, .i1⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384, .f32⟩
  | .hbm, ⟨73, _⟩ => ⟨S16384, .f32⟩
  | .hbm, ⟨74, _⟩ => ⟨S16384x1, .f32⟩
  | .hbm, ⟨75, _⟩ => ⟨S16384x501, .f32⟩
  | _, _ => ⟨S16384x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x400 : S_.BroadcastsInDim S16384x400 (![] : Fin 0 → Fin S16384x400.rank)
  bcast_S_S16384x1 : S_.BroadcastsInDim S16384x1 (![] : Fin 0 → Fin S16384x1.rank)
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  bcast_S16384x1024_S16384x1024x1_0_1 : S16384x1024.BroadcastsInDim S16384x1024x1 (![0, 1] : Fin 2 → Fin S16384x1024x1.rank)
  concatenates_S16384x1024x1_S16384x1024x1_S16384x1024x2_d2 : Shape.Concatenates [S16384x1024x1, S16384x1024x1] S16384x1024x2 2
  bcast_S_S16384x100 : S_.BroadcastsInDim S16384x100 (![] : Fin 0 → Fin S16384x100.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  concatenates_S16384x400_S16384x100_S16384x1_S16384x501_d1 : Shape.Concatenates [S16384x400, S16384x100, S16384x1] S16384x501 1
  scatter_S16384x400_S16384x1024x2_S16384x1024_n_01_01_2_wf : ScatterDims.WF S16384x400 S16384x1024x2 S16384x1024 [] [0, 1] [0, 1] 2
  dot_S16384x400_S400x400_S16384x400_1_0_0_1_n_n_wf : DotDims.WF S16384x400 S400x400 S16384x400 [1] [0] [0] [1] [] []
  scatter_S16384x100_S16384x1024x2_S16384x1024_n_01_01_2_wf : ScatterDims.WF S16384x100 S16384x1024x2 S16384x1024 [] [0, 1] [0, 1] 2
  dot_S16384x100_S100x100_S16384x100_1_0_0_1_n_n_wf : DotDims.WF S16384x100 S100x100 S16384x100 [1] [0] [0] [1] [] []

variable [Facts₀]

def scatter_S16384x400_S16384x1024x2_S16384x1024_n_01_01_2 : ScatterDims S16384x400 S16384x1024x2 S16384x1024 where
  updateWindowDims := []
  insertedWindowDims := [0, 1]
  scatterDimsToOperandDims := [0, 1]
  indexVectorDim := 2
  wf := scatter_S16384x400_S16384x1024x2_S16384x1024_n_01_01_2_wf
def dot_S16384x400_S400x400_S16384x400_1_0_0_1_n_n : DotDims S16384x400 S400x400 S16384x400 where
  lhsContracting := [1]
  rhsContracting := [0]
  lhsNonContracting := [0]
  rhsNonContracting := [1]
  lhsBatch := []
  rhsBatch := []
  wf := dot_S16384x400_S400x400_S16384x400_1_0_0_1_n_n_wf
def scatter_S16384x100_S16384x1024x2_S16384x1024_n_01_01_2 : ScatterDims S16384x100 S16384x1024x2 S16384x1024 where
  updateWindowDims := []
  insertedWindowDims := [0, 1]
  scatterDimsToOperandDims := [0, 1]
  indexVectorDim := 2
  wf := scatter_S16384x100_S16384x1024x2_S16384x1024_n_01_01_2_wf
def dot_S16384x100_S100x100_S16384x100_1_0_0_1_n_n : DotDims S16384x100 S100x100 S16384x100 where
  lhsContracting := [1]
  rhsContracting := [0]
  lhsNonContracting := [0]
  rhsNonContracting := [1]
  lhsBatch := []
  rhsBatch := []
  wf := dot_S16384x100_S100x100_S16384x100_1_0_0_1_n_n_wf

class Facts : Prop extends Facts₀ where

variable [Facts]
-- ==== Proof.KBAround.lean ====
/-
  @main of this program is four stretches of host operations (the length column reshaped to 16384 × 1, the two
  weight tables padded with zeros to 512 × 512 and 128 × 128), the one kernel region, and four host operations after
  it (three column slices of the region's 16384 × 768 result and their concatenation). This module states what
  the region finds in each array when it is entered (`V`), that the six argument arrays are written by no host
  operation before or after the region, what block of its array each window holds at a grid point (`iblk`), and
  how a run of the region's launch theorem gives the frame claim: the argument arrays end as they began.
-/
import proofs.«405439_j73753178407534_2_alg».proof.Proof.Gen.Kernel.Launch
import proofs.«405439_j73753178407534_2_alg».proof.Proof.Gen.Kernel.Skeleton
import proofs.«405439_j73753178407534_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The host operations around the region -/

/-- The four stretches of host operations before the region, in order. -/
abbrev before : List (List (HloOp τ sig (Elt F))) := [hostOps0, hostOps0_1, hostOps0_2, hostOps0_3]
/-- The one stretch after it. -/
abbrev after : List (List (HloOp τ sig (Elt F))) := [hostOps1]

/-- Core `c`'s buffer contents when the region is entered: the launch memory after the host operations before it. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

theorem before_sub : (before (F := F)).Forall fun ops => ops.Forall fun op => op.bufs ⊆ StableHlo.tcRefs τ sig := by
  simp only [List.Forall]; exact ⟨hostOps0_sub, hostOps0_1_sub, hostOps0_2_sub, hostOps0_3_sub⟩

theorem before_fresh : (before (F := F)).Forall fun ops => ops.Forall fun op => op.fresh = ∅ := by
  simp only [List.Forall]; repeat' constructor

theorem after_fresh : (hostOps1 : List (HloOp τ sig (Elt F))).Forall fun op => op.fresh = ∅ := by
  simp only [List.Forall]; repeat' constructor

/-- @main is the host operations before the region, the region, the host operations after it; so it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) (after (F := F)) before_sub before_fresh main_chain

/-- The later operations touch only unscoped TensorCore buffers: the pipeline's arrays and the buffers that bypass it. -/
theorem after_sub : ∀ ops ∈ (after (F := F)), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem after_alloc : ∀ ops ∈ (after (F := F)), ∀ op ∈ ops, op.fresh = ∅ := by
  intro ops hops op hop
  simp only [List.mem_cons, List.mem_nil_iff, or_false] at hops
  rcases hops with rfl
  exact (List.forall_iff_forall_mem.mp after_fresh) op hop

/-- Each writes only its own result (a slice or the concatenation), which is no window's array. -/
theorem after_keeps : ∀ ops ∈ (after (F := F)), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.nary_writes, Finset.mem_singleton] <;> exact StableHlo.devRef_ne_of_ne (by decide)

/-! ## The argument arrays are written by no host operation -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) (after (F := F)) c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) (after (F := F)) c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) (after (F := F)) c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block when the body runs, whether the pipeline fetched it at that point
    (the three 128-row blocks and the length column, at every point) or only once (the two weight tables, whose block
    index never moves) — for any proof data whose array is the region-entry contents and whose body leaves the block
    in place. -/

theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem found2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem found3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem found4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem found5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch theorem -/

/-- The three token and amount arrays are staged inputs: they end at the launch theorem's `arrAt`, which for an input is
    the region-entry contents; the length and weight arguments are staged by no window (their reshaped and padded
    copies are) and are untouched by the later host operations. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (after (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).1 2).trans (((dats 0 c).arrAt_in 2 rfl _).trans ((hA c 2).trans (V_main_arg2 m c))),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

end Cert.Kernel.Around

end
-- ==== Proof.KBBody.lean ====
/-
  The kernel body at one grid point, run once on any whole staging buffers. Its sixteen-trip loop reads the three
  128 × 1024 input blocks 64 columns at a time and carries three running sums (the per-code counts of the two token
  blocks and the masked sum of the log-scaled amounts); the loop is passed by its invariant, "the carried sums are the
  trips' results so far". After the loop the body reads the two padded weight tables and the length column and stores
  three column stretches — columns 0..511, 512..639 and 640..767 — that together cover the 128 × 768 result block,
  so the result buffer ends at the stretches laid side by side (`outBlk`), whatever it held before.
-/
import proofs.«405439_j73753178407534_2_alg».proof.Proof.KBAround
import proofs.«405439_j73753178407534_2_alg».proof.Proof.Gen.Kernel.Loops

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The rectangles the body reads and writes after its loop -/

abbrev rMcc : Rect S128x768 := Rect.unit (s := S128x768) ![0, 0] S128x512.size inb_S128x768_S128x512_0_0
abbrev rTrx : Rect S128x768 := Rect.unit (s := S128x768) ![0, 512] S128x128.size inb_S128x768_S128x128_0_512
abbrev rMean : Rect S128x768 := Rect.unit (s := S128x768) ![0, 640] S128x128.size inb_S128x768_S128x128_0_640
abbrev rTabMcc : Rect S512x512 := Rect.unit (s := S512x512) ![0, 0] S512x512.size inb_S512x512_S512x512_0_0
abbrev rTabTrx : Rect S128x128 := Rect.unit (s := S128x128) ![0, 0] S128x128.size inb_S128x128_S128x128_0_0
abbrev rLen : Rect S128x1 := Rect.unit (s := S128x1) ![0, 0] S128x1.size inb_S128x1_S128x1_0_0

/-- The three running sums after the loop's sixteen trips over the blocks `x0 x1 x2` and the length column `x3`,
    started from zeros. -/
def sums (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (x0 : Vec F S128x1024 .i32) (x1 : Vec F S128x1024 .i32) (x2 : Vec F S128x1024 .f32) (x3 : Vec F S128x1 .i32) :
    FVec F S128x512 .f32 × FVec F S128x128 .f32 × FVec F S128x1 .f32 :=
  st_k0_t1 Variants.none c none i arg1 harg1 arg2 harg2 arg3 harg3 arg4 harg4 arg5 harg5 arg6 harg6 arg7 harg7
    (harg1.unread x0) (harg2.unread x1) (harg3.unread x2) (harg4.unread x3)
    (k0_pay1, k0_pay2, k0_pay3) (Scf.trips k0_t1_loop.lb k0_t1_loop.ub k0_t1_loop.st)

/-- What the body leaves in the result block: the three stored stretches, the last stored first. -/
def outBlk (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (x0 : Vec F S128x1024 .i32) (x1 : Vec F S128x1024 .i32) (x2 : Vec F S128x1024 .f32) (x3 : Vec F S128x1 .i32)
    (x4 : Vec F S512x512 .f32) (x5 : Vec F S128x128 .f32) : Vec F S128x768 .f32 :=
  View.canon
    [⟨rMean, k0_pay7 (sums c i arg1 harg1 arg2 harg2 arg3 harg3 arg4 harg4 arg5 harg5 arg6 harg6 arg7 harg7 x0 x1 x2 x3).2.2
        (View.readAt (Elt F) arg4.view rLen.toLoadRect (harg4.unread x3))⟩,
     ⟨rTrx, k0_pay6 (sums c i arg1 harg1 arg2 harg2 arg3 harg3 arg4 harg4 arg5 harg5 arg6 harg6 arg7 harg7 x0 x1 x2 x3).2.1
        (View.readAt (Elt F) arg6.view rTabTrx.toLoadRect (harg6.unread x5))⟩,
     ⟨rMcc, k0_pay5 (sums c i arg1 harg1 arg2 harg2 arg3 harg3 arg4 harg4 arg5 harg5 arg6 harg6 arg7 harg7 x0 x1 x2 x3).1
        (View.readAt (Elt F) arg5.view rTabMcc.toLoadRect (harg5.unread x4))⟩]

/-- The three stretches cover the block: a column below 512 lies in the first, one below 640 in the second, any other
    in the third. -/
theorem stretches_cover (p7 p6 : Vec F S128x128 .f32) (p5 : Vec F S128x512 .f32) (y : S128x768.Idx) :
    ∃ pc ∈ ([⟨rMean, p7⟩, ⟨rTrx, p6⟩, ⟨rMcc, p5⟩] : List (View.Piece (Elt F) S128x768 .f32)), y ∈ pc.1.set :=
  by
  have h0 : (y 0).val < 128 := (y 0).isLt
  have h1 : (y 1).val < 768 := (y 1).isLt
  by_cases hA : (y 1).val < 512
  · refine ⟨⟨rMcc, p5⟩, by simp, (Rect.mem_set_unit (inb := inb_S128x768_S128x512_0_0)).mpr fun a => ?_⟩
    match a with
    | ⟨0, _⟩ => exact ⟨Nat.zero_le _, by show (y 0).val < 0 + 128; omega⟩
    | ⟨1, _⟩ => exact ⟨Nat.zero_le _, by show (y 1).val < 0 + 512; omega⟩
  · by_cases hB : (y 1).val < 640
    · refine ⟨⟨rTrx, p6⟩, by simp, (Rect.mem_set_unit (inb := inb_S128x768_S128x128_0_512)).mpr fun a => ?_⟩
      match a with
      | ⟨0, _⟩ => exact ⟨Nat.zero_le _, by show (y 0).val < 0 + 128; omega⟩
      | ⟨1, _⟩ => exact ⟨by show 512 ≤ (y 1).val; omega, by show (y 1).val < 512 + 128; omega⟩
    · refine ⟨⟨rMean, p7⟩, by simp, (Rect.mem_set_unit (inb := inb_S128x768_S128x128_0_640)).mpr fun a => ?_⟩
      match a with
      | ⟨0, _⟩ => exact ⟨Nat.zero_le _, by show (y 0).val < 0 + 128; omega⟩
      | ⟨1, _⟩ => exact ⟨by show 640 ≤ (y 1).val; omega, by show (y 1).val < 640 + 128; omega⟩

set_option maxHeartbeats 4000000 in
/-- On whole staging buffers — the six inputs at contents `x0 … x5`, the result's at anything — the body runs to the
    continuation with the inputs as they were and the result buffer at `outBlk`. -/
theorem sound_kernel (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (x0 : Vec F S128x1024 .i32) (x1 : Vec F S128x1024 .i32) (x2 : Vec F S128x1024 .f32) (x3 : Vec F S128x1 .i32)
    (x4 : Vec F S512x512 .f32) (x5 : Vec F S128x128 .f32) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare (outBlk c i arg1 harg1 arg2 harg2 arg3 harg3 arg4 harg4 arg5 harg5 arg6 harg6 arg7 harg7 x0 x1 x2 x3 x4 x5)) -∗ K ⟨⟩))
          ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr; swap; · iexact H6
  ipureintro
  exact View.read_writes_eq_canon _ _ _ (stretches_cover _ _ _)

end Cert.Kernel.Body

end
-- ==== Proof.KBRun.lean ====
/-
  The launch of the one kernel region. The proof data say what each window's staging buffer holds after the body at
  grid point `t`: an input window its block of the array, the result window the three stored stretches computed from
  the point's input blocks (`blockAt`). The body's run at one point gives the per-point obligation; the library's
  launch theorem for "host operations, region, host operations" then gives the whole run, and from it the frame claim.
-/
import proofs.«405439_j73753178407534_2_alg».proof.Proof.KBBody

set_option maxRecDepth 16384

noncomputable section

namespace Cert.Kernel.Run

open Cert.Kernel Cert.Kernel.Gen Cert.Kernel.Around Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The result block of grid point `t`: the body's three stretches over the point's six input blocks. -/
def blockAt (c : Dev nD) (t : Fin cfg0.N) : Vec F S128x768 .f32 :=
  outBlk c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
    (iblk m c 0 t) (iblk m c 1 t) (iblk m c 2 t) (iblk m c 3 t) (iblk m c 4 t) (iblk m c 5 t)

/-- The proof data of the one pipeline on core `c`: the arrays as the region finds them; after the body each input's
    buffer at its block and the result's at `blockAt`; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blockAt m c t := by dsimp only [dats]

theorem before0_0 (c : Dev nD) (t : Fin cfg0.N) (d) : (dats m 0 c).before 0 t d = iblk m c 0 t :=
  found0 m (dats m 0 c) (A_eq m c 0) (after0_0 m c) t d
theorem before0_1 (c : Dev nD) (t : Fin cfg0.N) (d) : (dats m 0 c).before 1 t d = iblk m c 1 t :=
  found1 m (dats m 0 c) (A_eq m c 1) (after0_1 m c) t d
theorem before0_2 (c : Dev nD) (t : Fin cfg0.N) (d) : (dats m 0 c).before 2 t d = iblk m c 2 t :=
  found2 m (dats m 0 c) (A_eq m c 2) (after0_2 m c) t d
theorem before0_3 (c : Dev nD) (t : Fin cfg0.N) (d) : (dats m 0 c).before 3 t d = iblk m c 3 t :=
  found3 m (dats m 0 c) (A_eq m c 3) (after0_3 m c) t d
theorem before0_4 (c : Dev nD) (t : Fin cfg0.N) (d) : (dats m 0 c).before 4 t d = iblk m c 4 t :=
  found4 m (dats m 0 c) (A_eq m c 4) (after0_4 m c) t d
theorem before0_5 (c : Dev nD) (t : Fin cfg0.N) (d) : (dats m 0 c).before 5 t d = iblk m c 5 t :=
  found5 m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's run applies; the invariant and the
    empty debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold blockAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _
    (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's per-point obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, and in every final state each
    array of the pipeline holds what the proof data compute and every other unscoped buffer what the later host
    operations leave there. -/
theorem run_main : θ_run defs (onTc (τ := τ) (main (F := F))) (s₀ m ρ)
    (Pipeline.FramePost cfgs (dats m) 0 (Pipeline.afterTail₀ cfgs (dats m) 0 (V0 m) (after (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := after (F := F)) (hsub := after_sub) (hfresh := after_alloc) (hkeep := after_keeps)
    (hmain := hmain m Variants.none) (hA := A_eq m) (hΦ := fun _ _ => rfl)

/-- The frame claim: the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Run

end
-- ==== Proof.KIAround.lean ====
/-
  @main of this program is four stretches of host operations (the length column reshaped to 16384 × 1, the two
  weight tables padded with zeros to 512 × 512 and 128 × 128), the one kernel region, and four host operations after
  it (three column slices of the region's 16384 × 768 result and their concatenation). This module states what
  the region finds in each array when it is entered (`V`), that the six argument arrays are written by no host
  operation before or after the region, what block of its array each window holds at a grid point (`iblk`), and
  how a run of the region's launch theorem gives the frame claim: the argument arrays end as they began.
-/
import proofs.«405439_j73753178407534_2_alg».proof.Proof.Gen.KernelIdeal.Launch
import proofs.«405439_j73753178407534_2_alg».proof.Proof.Gen.KernelIdeal.Skeleton
import proofs.«405439_j73753178407534_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The four stretches of host operations before the region, in order. -/
abbrev before : List (List (HloOp τ sig (Elt F))) := [hostOps0, hostOps0_1, hostOps0_2, hostOps0_3]
/-- The one stretch after it. -/
abbrev after : List (List (HloOp τ sig (Elt F))) := [hostOps1]

/-- Core `c`'s buffer contents when the region is entered: the launch memory after the host operations before it. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

theorem before_sub : (before (F := F)).Forall fun ops => ops.Forall fun op => op.bufs ⊆ StableHlo.tcRefs τ sig := by
  simp only [List.Forall]; exact ⟨hostOps0_sub, hostOps0_1_sub, hostOps0_2_sub, hostOps0_3_sub⟩

theorem before_fresh : (before (F := F)).Forall fun ops => ops.Forall fun op => op.fresh = ∅ := by
  simp only [List.Forall]; repeat' constructor

theorem after_fresh : (hostOps1 : List (HloOp τ sig (Elt F))).Forall fun op => op.fresh = ∅ := by
  simp only [List.Forall]; repeat' constructor

/-- @main is the host operations before the region, the region, the host operations after it; so it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) (after (F := F)) before_sub before_fresh main_chain

/-- The later operations touch only unscoped TensorCore buffers: the pipeline's arrays and the buffers that bypass it. -/
theorem after_sub : ∀ ops ∈ (after (F := F)), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem after_alloc : ∀ ops ∈ (after (F := F)), ∀ op ∈ ops, op.fresh = ∅ := by
  intro ops hops op hop
  simp only [List.mem_cons, List.mem_nil_iff, or_false] at hops
  rcases hops with rfl
  exact (List.forall_iff_forall_mem.mp after_fresh) op hop

/-- Each writes only its own result (a slice or the concatenation), which is no window's array. -/
theorem after_keeps : ∀ ops ∈ (after (F := F)), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.nary_writes, Finset.mem_singleton] <;> exact StableHlo.devRef_ne_of_ne (by decide)

/-! ## The argument arrays are written by no host operation -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, Finset.mem_singleton]
    repeat' apply And.intro
    all_goals exact StableHlo.devRef_ne_of_ne (by decide)))

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) (after (F := F)) c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) (after (F := F)) c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) (after (F := F)) c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block when the body runs, whether the pipeline fetched it at that point
    (the three 128-row blocks and the length column, at every point) or only once (the two weight tables, whose block
    index never moves) — for any proof data whose array is the region-entry contents and whose body leaves the block
    in place. -/

theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem found2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem found3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem found4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem found5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch theorem -/

/-- The three token and amount arrays are staged inputs: they end at the launch theorem's `arrAt`, which for an input is
    the region-entry contents; the length and weight arguments are staged by no window (their reshaped and padded
    copies are) and are untouched by the later host operations. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (after (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).1 2).trans (((dats 0 c).arrAt_in 2 rfl _).trans ((hA c 2).trans (V_main_arg2 m c))),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

end Cert.KernelIdeal.Around

end
-- ==== Proof.KIBody.lean ====
/-
  The kernel body at one grid point, run once on any whole staging buffers. Its sixteen-trip loop reads the three
  128 × 1024 input blocks 64 columns at a time and carries three running sums (the per-code counts of the two token
  blocks and the masked sum of the log-scaled amounts); the loop is passed by its invariant, "the carried sums are the
  trips' results so far". After the loop the body reads the two padded weight tables and the length column and stores
  three column stretches — columns 0..511, 512..639 and 640..767 — that together cover the 128 × 768 result block,
  so the result buffer ends at the stretches laid side by side (`outBlk`), whatever it held before.
-/
import proofs.«405439_j73753178407534_2_alg».proof.Proof.KIAround
import proofs.«405439_j73753178407534_2_alg».proof.Proof.Gen.KernelIdeal.Loops

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes after its loop -/

abbrev rMcc : Rect S128x768 := Rect.unit (s := S128x768) ![0, 0] S128x512.size inb_S128x768_S128x512_0_0
abbrev rTrx : Rect S128x768 := Rect.unit (s := S128x768) ![0, 512] S128x128.size inb_S128x768_S128x128_0_512
abbrev rMean : Rect S128x768 := Rect.unit (s := S128x768) ![0, 640] S128x128.size inb_S128x768_S128x128_0_640
abbrev rTabMcc : Rect S512x512 := Rect.unit (s := S512x512) ![0, 0] S512x512.size inb_S512x512_S512x512_0_0
abbrev rTabTrx : Rect S128x128 := Rect.unit (s := S128x128) ![0, 0] S128x128.size inb_S128x128_S128x128_0_0
abbrev rLen : Rect S128x1 := Rect.unit (s := S128x1) ![0, 0] S128x1.size inb_S128x1_S128x1_0_0

/-- The three running sums after the loop's sixteen trips over the blocks `x0 x1 x2` and the length column `x3`,
    started from zeros. -/
def sums (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (x0 : Vec F S128x1024 .i32) (x1 : Vec F S128x1024 .i32) (x2 : Vec F S128x1024 .f32) (x3 : Vec F S128x1 .i32) :
    FVec F S128x512 .f32 × FVec F S128x128 .f32 × FVec F S128x1 .f32 :=
  st_k0_t1 Variants.none c none i arg1 harg1 arg2 harg2 arg3 harg3 arg4 harg4 arg5 harg5 arg6 harg6 arg7 harg7
    (harg1.unread x0) (harg2.unread x1) (harg3.unread x2) (harg4.unread x3)
    (k0_pay1, k0_pay2, k0_pay3) (Scf.trips k0_t1_loop.lb k0_t1_loop.ub k0_t1_loop.st)

/-- What the body leaves in the result block: the three stored stretches, the last stored first. -/
def outBlk (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (x0 : Vec F S128x1024 .i32) (x1 : Vec F S128x1024 .i32) (x2 : Vec F S128x1024 .f32) (x3 : Vec F S128x1 .i32)
    (x4 : Vec F S512x512 .f32) (x5 : Vec F S128x128 .f32) : Vec F S128x768 .f32 :=
  View.canon
    [⟨rMean, k0_pay7 (sums c i arg1 harg1 arg2 harg2 arg3 harg3 arg4 harg4 arg5 harg5 arg6 harg6 arg7 harg7 x0 x1 x2 x3).2.2
        (View.readAt (Elt F) arg4.view rLen.toLoadRect (harg4.unread x3))⟩,
     ⟨rTrx, k0_pay6 (sums c i arg1 harg1 arg2 harg2 arg3 harg3 arg4 harg4 arg5 harg5 arg6 harg6 arg7 harg7 x0 x1 x2 x3).2.1
        (View.readAt (Elt F) arg6.view rTabTrx.toLoadRect (harg6.unread x5))⟩,
     ⟨rMcc, k0_pay5 (sums c i arg1 harg1 arg2 harg2 arg3 harg3 arg4 harg4 arg5 harg5 arg6 harg6 arg7 harg7 x0 x1 x2 x3).1
        (View.readAt (Elt F) arg5.view rTabMcc.toLoadRect (harg5.unread x4))⟩]

/-- The three stretches cover the block: a column below 512 lies in the first, one below 640 in the second, any other
    in the third. -/
theorem stretches_cover (p7 p6 : Vec F S128x128 .f32) (p5 : Vec F S128x512 .f32) (y : S128x768.Idx) :
    ∃ pc ∈ ([⟨rMean, p7⟩, ⟨rTrx, p6⟩, ⟨rMcc, p5⟩] : List (View.Piece (Elt F) S128x768 .f32)), y ∈ pc.1.set :=
  by
  have h0 : (y 0).val < 128 := (y 0).isLt
  have h1 : (y 1).val < 768 := (y 1).isLt
  by_cases hA : (y 1).val < 512
  · refine ⟨⟨rMcc, p5⟩, by simp, (Rect.mem_set_unit (inb := inb_S128x768_S128x512_0_0)).mpr fun a => ?_⟩
    match a with
    | ⟨0, _⟩ => exact ⟨Nat.zero_le _, by show (y 0).val < 0 + 128; omega⟩
    | ⟨1, _⟩ => exact ⟨Nat.zero_le _, by show (y 1).val < 0 + 512; omega⟩
  · by_cases hB : (y 1).val < 640
    · refine ⟨⟨rTrx, p6⟩, by simp, (Rect.mem_set_unit (inb := inb_S128x768_S128x128_0_512)).mpr fun a => ?_⟩
      match a with
      | ⟨0, _⟩ => exact ⟨Nat.zero_le _, by show (y 0).val < 0 + 128; omega⟩
      | ⟨1, _⟩ => exact ⟨by show 512 ≤ (y 1).val; omega, by show (y 1).val < 512 + 128; omega⟩
    · refine ⟨⟨rMean, p7⟩, by simp, (Rect.mem_set_unit (inb := inb_S128x768_S128x128_0_640)).mpr fun a => ?_⟩
      match a with
      | ⟨0, _⟩ => exact ⟨Nat.zero_le _, by show (y 0).val < 0 + 128; omega⟩
      | ⟨1, _⟩ => exact ⟨by show 640 ≤ (y 1).val; omega, by show (y 1).val < 640 + 128; omega⟩

set_option maxHeartbeats 4000000 in
/-- On whole staging buffers — the six inputs at contents `x0 … x5`, the result's at anything — the body runs to the
    continuation with the inputs as they were and the result buffer at `outBlk`. -/
theorem sound_kernel (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (x0 : Vec F S128x1024 .i32) (x1 : Vec F S128x1024 .i32) (x2 : Vec F S128x1024 .f32) (x3 : Vec F S128x1 .i32)
    (x4 : Vec F S512x512 .f32) (x5 : Vec F S128x128 .f32) (E : Set ℕ) (K : PUnit → sProp 𝕄) :
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare (outBlk c i arg1 harg1 arg2 harg2 arg3 harg3 arg4 harg4 arg5 harg5 arg6 harg6 arg7 harg7 x0 x1 x2 x3 x4 x5)) -∗ K ⟨⟩))
          ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr; swap; · iexact H6
  ipureintro
  exact View.read_writes_eq_canon _ _ _ (stretches_cover _ _ _)

end Cert.KernelIdeal.Body

end
-- ==== Proof.KIRun.lean ====
/-
  The launch of the one kernel region. The proof data say what each window's staging buffer holds after the body at
  grid point `t`: an input window its block of the array, the result window the three stored stretches computed from
  the point's input blocks (`blockAt`). The body's run at one point gives the per-point obligation; the library's
  launch theorem for "host operations, region, host operations" then gives the whole run, and from it the frame claim.
-/
import proofs.«405439_j73753178407534_2_alg».proof.Proof.KIBody

set_option maxRecDepth 16384

noncomputable section

namespace Cert.KernelIdeal.Run

open Cert.KernelIdeal Cert.KernelIdeal.Gen Cert.KernelIdeal.Around Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result block of grid point `t`: the body's three stretches over the point's six input blocks. -/
def blockAt (c : Dev nD) (t : Fin cfg0.N) : Vec F S128x768 .f32 :=
  outBlk c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
    (iblk m c 0 t) (iblk m c 1 t) (iblk m c 2 t) (iblk m c 3 t) (iblk m c 4 t) (iblk m c 5 t)

/-- The proof data of the one pipeline on core `c`: the arrays as the region finds them; after the body each input's
    buffer at its block and the result's at `blockAt`; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blockAt m c t := by dsimp only [dats]

theorem before0_0 (c : Dev nD) (t : Fin cfg0.N) (d) : (dats m 0 c).before 0 t d = iblk m c 0 t :=
  found0 m (dats m 0 c) (A_eq m c 0) (after0_0 m c) t d
theorem before0_1 (c : Dev nD) (t : Fin cfg0.N) (d) : (dats m 0 c).before 1 t d = iblk m c 1 t :=
  found1 m (dats m 0 c) (A_eq m c 1) (after0_1 m c) t d
theorem before0_2 (c : Dev nD) (t : Fin cfg0.N) (d) : (dats m 0 c).before 2 t d = iblk m c 2 t :=
  found2 m (dats m 0 c) (A_eq m c 2) (after0_2 m c) t d
theorem before0_3 (c : Dev nD) (t : Fin cfg0.N) (d) : (dats m 0 c).before 3 t d = iblk m c 3 t :=
  found3 m (dats m 0 c) (A_eq m c 3) (after0_3 m c) t d
theorem before0_4 (c : Dev nD) (t : Fin cfg0.N) (d) : (dats m 0 c).before 4 t d = iblk m c 4 t :=
  found4 m (dats m 0 c) (A_eq m c 4) (after0_4 m c) t d
theorem before0_5 (c : Dev nD) (t : Fin cfg0.N) (d) : (dats m 0 c).before 5 t d = iblk m c 5 t :=
  found5 m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's run applies; the invariant and the
    empty debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  unfold blockAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _
    (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's per-point obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero counters every weakly fair execution of @main terminates, and in every final state each
    array of the pipeline holds what the proof data compute and every other unscoped buffer what the later host
    operations leave there. -/
theorem run_main : θ_run defs (onTc (τ := τ) (main (F := F))) (s₀ m ρ)
    (Pipeline.FramePost cfgs (dats m) 0 (Pipeline.afterTail₀ cfgs (dats m) 0 (V0 m) (after (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := after (F := F)) (hsub := after_sub) (hfresh := after_alloc) (hkeep := after_keeps)
    (hmain := hmain m Variants.none) (hA := A_eq m) (hΦ := fun _ _ => rfl)

/-- The frame claim: the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Run

end
-- ==== Proof.KIArray.lean ====
/-
  The kernel region writes the 16384 × 768 result array block by block: grid point t writes rows 128 t … 128 t + 127
  (all 768 columns). This module names the array the region leaves as ONE function of the row and the column
  (`wholeOut`: row R, column j is entry (R mod 128, j) of the block of point R / 128), shows the array after the last
  point is that function (every point writes back block t of it, and the blocks cover every row), and reads the three
  column slices and their concatenation, which the host operations after the region compute, off the run.
-/
import proofs.«405439_j73753178407534_2_alg».proof.Proof.KIRun
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Cert.KernelIdeal.Around Cert.KernelIdeal.Body Cert.KernelIdeal.Run
open Idealize.ShloMosaic Idealize.ShloMosaic.TcCoe Idealize.ShloMosaic.Tactic Idealize.ShloMosaic.ValueIdx
open Idealize.SL Idealize.SL.Sem
open Idealize.ShloMosaic.Pipeline (Dat Cfg Window)

/-- The grid point whose block holds row `R`. -/
def blockOfRow (R : Fin 16384) : Fin cfg0.N := ⟨R.val / 128, by
  have h := R.isLt
  rw [show cfg0.N = 128 from N_0]
  omega⟩

/-- Row `R`'s position inside its block. -/
def rowInBlock (R : Fin 16384) : Fin 128 := ⟨R.val % 128, Nat.mod_lt _ (by decide)⟩

/-- The region's whole result: row `R`, column `j` is entry `(R % 128, j)` of the block of point `R / 128`. -/
def wholeOut (m : (ℓ : Loc nD τ sig) → Buf (Elt Ideal) ℓ) (c : Dev nD) : S16384x768.Idx → EReal :=
  fun i => blockAt (F := Ideal) m c (blockOfRow (i 0)) (ix2 (rowInBlock (i 0)) (i 1))

theorem wholeOut_apply (m : (ℓ : Loc nD τ sig) → Buf (Elt Ideal) ℓ) (c : Dev nD) (R : Fin 16384) (j : Fin 768) :
    wholeOut m c (ix2 R j) = blockAt (F := Ideal) m c (blockOfRow R) (ix2 (rowInBlock R) j) := rfl

variable (m : (ℓ : Loc nD τ sig) → Buf (Elt Ideal) ℓ) (ρ : Dev nD → PrngReg)

/-- The result window's index map, decided over the grid: point `t` holds block row `t`, block column 0. -/
theorem idx_facts : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Reading `wholeOut` at row `128 t + r`, column `j`: entry `(r, j)` of point `t`'s block. -/
theorem wholeOut_at (c : Dev nD) (t : Fin cfg0.N) (r : Fin 128) (j : Fin 768) (i : S16384x768.Idx)
    (h0 : (i 0).val = 128 * t.val + r.val) (h1 : (i 1).val = j.val) :
    wholeOut m c i = blockAt (F := Ideal) m c t (ix2 r j) := by
  have hr := r.isLt
  have eb : blockOfRow (i 0) = t := Fin.ext (by show (i 0).val / 128 = t.val; omega)
  have er : rowInBlock (i 0) = r := Fin.ext (by show (i 0).val % 128 = r.val; omega)
  have ej : (i 1 : Fin 768) = j := Fin.ext h1
  show blockAt (F := Ideal) m c (blockOfRow (i 0)) (ix2 (rowInBlock (i 0)) (i 1 : Fin 768)) = _
  rw [eb, er, ej]

/-- What point `t` writes back is block `t` of `wholeOut`. -/
theorem flushed_eq (c : Dev nD) (t : Fin cfg0.N) :
    (dats (F := Ideal) m 0 c).flushed 6 t = ((cfg0.win 6).blk t).view.read (Elt Ideal) (wholeOut m c) := by
  show (cfg0.win 6).cut (grid0.coords t) ((dats (F := Ideal) m 0 c).after 6 t) = _
  rw [after0_6]
  funext y
  obtain ⟨e0, e1⟩ := idx_facts t
  have hy0 : (y 0).val < 128 := (y 0).isLt
  have hy1 : (y 1).val < 768 := (y 1).isLt
  symm
  refine (wholeOut_at m c t ⟨(y 0).val, hy0⟩ ⟨(y 1).val, hy1⟩ (((cfg0.win 6).blk t).view.emb y) ?_ ?_).trans ?_
  · show win0_6.index t (0 : Fin 2) * 128 + 1 * (y 0).val = _
    rw [e0]; show _ = 128 * t.val + (y 0).val; omega
  · show win0_6.index t (1 : Fin 2) * 768 + 1 * (y 1).val = _
    rw [e1]; show _ = (y 1).val; omega
  · exact congrArg (blockAt (F := Ideal) m c t) (funext fun a => by
      match a with
      | ⟨0, _⟩ => rfl
      | ⟨1, _⟩ => rfl)

/-- An index of the array is in point `t`'s block iff each coordinate is in the block's range on its axis. -/
theorem mem_blk (t : Fin cfg0.N) (i : S16384x768.Idx) :
    i ∈ ((cfg0.win 6).blk t).view.set ↔ ∀ a : Fin 2, win0_6.index t a * S128x768.size a ≤ (i a).val
      ∧ (i a).val < win0_6.index t a * S128x768.size a + S128x768.size a := by
  show i ∈ ((View.whole main_v3).slice (win0_6.rect t)).set ↔ _
  rw [View.set_slice_whole, Rect.mem_set_unit]
  exact Iff.rfl

/-- Every entry of the array lies in the block of the point its row selects, and every point writes back. -/
theorem cover (i : S16384x768.Idx) :
    ∃ t : Fin cfg0.N, (cfg0.win 6).flush t = true ∧ i ∈ ((cfg0.win 6).blk t).view.set := by
  have hi0 : (i 0).val < 16384 := (i 0).isLt
  have hi1 : (i 1).val < 768 := (i 1).isLt
  refine ⟨blockOfRow (i 0), flush0_6 _, ?_⟩
  rw [mem_blk]
  obtain ⟨e0, e1⟩ := idx_facts (blockOfRow (i 0))
  have eb : (blockOfRow (i 0)).val = (i 0).val / 128 := rfl
  intro a
  match a with
  | ⟨0, _⟩ =>
    show win0_6.index (blockOfRow (i 0)) (0 : Fin 2) * 128 ≤ (i 0).val
      ∧ (i 0).val < win0_6.index (blockOfRow (i 0)) (0 : Fin 2) * 128 + 128
    rw [e0, eb]; omega
  | ⟨1, _⟩ =>
    show win0_6.index (blockOfRow (i 0)) (1 : Fin 2) * 768 ≤ (i 1).val
      ∧ (i 1).val < win0_6.index (blockOfRow (i 0)) (1 : Fin 2) * 768 + 768
    rw [e1]; omega

/-- The result array after the last point is `wholeOut`. -/
theorem final6 (c : Dev nD) : (dats (F := Ideal) m 0 c).arrAt 6 cfg0.N = wholeOut m c :=
  (dats (F := Ideal) m 0 c).arrAt_eq_of_cover 6 (wholeOut m c) (fun t _ => flushed_eq m c t) cover

/-- The result array as the later host operations find it: the pipeline's final contents of window 6's array. -/
theorem tail_v3 (c : Dev nD) :
    Pipeline.withArrays (cfgs 0).spec c (V0 m c) (fun w => (dats (F := Ideal) m 0 c).arrAt w (cfgs 0).N) (Proc.devRef .tc main_v3)
      = wholeOut m c :=
  (Pipeline.withArrays_arr spec0 launch0.win.arr_inj c _ _ 6).trans (final6 m c)

/-- What the later host operations leave in the concatenation's buffer: each of the three slices reads the result array,
    which none of them writes, and the concatenation reads the three slices. -/
theorem tail_v7 (c : Dev nD) :
    Pipeline.afterTail₀ cfgs (dats (F := Ideal) m) 0 (V0 m) (after (F := Ideal)) c main_v7
      = concatenate S16384x501 1 [⟨S16384x400, extractStridedSlice S16384x400 ![0, 0] (wholeOut m c) slices_S16384x768_S16384x400_0_0⟩,
              ⟨S16384x100, extractStridedSlice S16384x100 ![0, 512] (wholeOut m c) slices_S16384x768_S16384x100_0_512⟩,
              ⟨S16384x1, extractStridedSlice S16384x1 ![0, 640] (wholeOut m c) slices_S16384x768_S16384x1_0_640⟩]
              concatenates_S16384x400_S16384x100_S16384x1_S16384x501_d1 := by
  unfold Pipeline.afterTail₀
  show StableHlo.after hostOps1 _ (Proc.devRef .tc main_v7) = _
  after_results
  dsimp only [Matrix.cons_val_zero, Matrix.cons_val_one, Matrix.cons_val_two, Matrix.head_cons, Matrix.vecHead, Matrix.vecTail,
    Function.comp_apply, Fin.succ_zero_eq_one]
  repeat (first
    | rw [StableHlo.unary_result]
    | (rw [StableHlo.unary_result_ne]; rotate_left; decide))
  rw [tail_v3]

/-- The run, read: from any memory with zero counters every weakly fair execution of @main terminates; the concatenation's
    buffer ends at the three column slices of `wholeOut` concatenated, and the six argument arrays end as they began. -/
theorem run_value : θ_run defs (onTc (τ := τ) (main (F := Ideal))) ⟨m, fun _ => 0, ρ⟩ (fun r => ∀ c : Dev nD,
      r.2.mem ((c.tc : Thread nD τ).loc main_v7)
        = concatenate S16384x501 1 [⟨S16384x400, extractStridedSlice S16384x400 ![0, 0] (wholeOut m c) slices_S16384x768_S16384x400_0_0⟩,
            ⟨S16384x100, extractStridedSlice S16384x100 ![0, 512] (wholeOut m c) slices_S16384x768_S16384x100_0_512⟩,
            ⟨S16384x1, extractStridedSlice S16384x1 ![0, 640] (wholeOut m c) slices_S16384x768_S16384x1_0_640⟩]
            concatenates_S16384x400_S16384x100_S16384x1_S16384x501_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v7 (Pipeline.mem_restRefs_of main_v7 (by decide) (by decide))).trans (tail_v7 m c),
     ((h c).1 0).trans (((dats (F := Ideal) m 0 c).arrAt_in 0 rfl _).trans ((A_eq m c 0).trans (V_main_arg0 m c))),
     ((h c).1 1).trans (((dats (F := Ideal) m 0 c).arrAt_in 1 rfl _).trans ((A_eq m c 1).trans (V_main_arg1 m c))),
     ((h c).1 2).trans (((dats (F := Ideal) m 0 c).arrAt_in 2 rfl _).trans ((A_eq m c 2).trans (V_main_arg2 m c))),
     ((h c).2 main_arg3 (Pipeline.mem_restRefs_of main_arg3 (by decide) (by decide))).trans (W_main_arg3 m (dats (F := Ideal) m) c),
     ((h c).2 main_arg4 (Pipeline.mem_restRefs_of main_arg4 (by decide) (by decide))).trans (W_main_arg4 m (dats (F := Ideal) m) c),
     ((h c).2 main_arg5 (Pipeline.mem_restRefs_of main_arg5 (by decide) (by decide))).trans (W_main_arg5 m (dats (F := Ideal) m) c)⟩)
    (run_main (F := Ideal) m ρ)

end Cert.KernelIdeal.ArrayValue

end
-- ==== Proof.Spec.lean ====
/-
  What both programs compute, written once as plain mathematics over the argument arrays.

  Row `b` of the result has three stretches.
  * Columns 0..399: the mean of the embedding rows `W_mcc[mcc_code[b, t]]` over all 1024 positions `t`, written as
    (how often code `v` occurs in row `b`) · (1/1024) · `W_mcc[v, j]`, summed over the 400 codes `v`.
  * Columns 400..499: the same for `trx_type` and the 100 × 100 table `W_trx`.
  * Column 500: the ragged mean of `log1p |a| · sign a` over the first `seq_lens[b]` amounts of the row, the sum
    taken over all positions with a 0/1 factor for "position below the row's length", divided by that length.
-/
import Idealize.ShloMosaic.PureOps.Ideal
import Idealize.ShloMosaic.Lib.ValueIdx

noncomputable section

namespace Cert.TrxSpec

open Idealize.ShloMosaic Idealize.ShloMosaic.ValueIdx

abbrev SRowsPos : Shape := ⟨2, ![16384, 1024]⟩
abbrev SRows : Shape := ⟨1, ![16384]⟩
abbrev SMccTab : Shape := ⟨2, ![400, 400]⟩
abbrev STrxTab : Shape := ⟨2, ![100, 100]⟩
abbrev SMccOut : Shape := ⟨2, ![16384, 400]⟩
abbrev STrxOut : Shape := ⟨2, ![16384, 100]⟩
abbrev SMeanOut : Shape := ⟨2, ![16384, 1]⟩

/-- 1 when the word is the code `v`, else 0. -/
def hit (w : BitVec 32) (v : ℕ) : EReal := if w = BitVec.ofNat 32 v then 1 else 0

/-- How many of the 1024 positions of row `b` carry the code `v`. -/
def codeCount (tok : SRowsPos.Idx → BitVec 32) (b : Fin 16384) (v : ℕ) : EReal :=
  ∑ t : Fin 1024, hit (tok (ix2 b t)) v

/-- The weight 1/1024 of one position, as the float word both programs carry. -/
def posWeight : EReal := Ideal.ofBits .f32 0x3A800000#32

/-- The mean embedding of a row's `mcc_code`s: for output column `j`, the sum over the codes of
    (count · 1/1024) · `W[v, j]`. -/
def bagMcc (tok : SRowsPos.Idx → BitVec 32) (W : SMccTab.Idx → EReal) : SMccOut.Idx → EReal :=
  fun i => ∑ v : Fin 400, (codeCount tok (i 0) v.val * posWeight) * W (ix2 v (i 1))

/-- The same for `trx_type` and its 100 × 100 table. -/
def bagTrx (tok : SRowsPos.Idx → BitVec 32) (W : STrxTab.Idx → EReal) : STrxOut.Idx → EReal :=
  fun i => ∑ v : Fin 100, (codeCount tok (i 0) v.val * posWeight) * W (ix2 v (i 1))

/-- The log-scaled amount `log1p |a| · sign a`. -/
def logScaled (a : EReal) : EReal := Ideal.log1p (max a (-a)) * Ideal.sign a

/-- 1 when position `t` lies below the (signed) length word `n`, else 0. -/
def below (t : ℕ) (n : BitVec 32) : EReal := if (BitVec.ofNat 32 t).slt n = true then 1 else 0

/-- The ragged mean of a row: the masked sum of the log-scaled amounts over the row's length. -/
def raggedMean (amt : SRowsPos.Idx → EReal) (len : SRows.Idx → BitVec 32) : SMeanOut.Idx → EReal :=
  fun i => Ideal.div (∑ t : Fin 1024, logScaled (amt (ix2 (i 0) t)) * below t.val (len (ix1 (i 0))))
    ((((len (ix1 (i 0))).toInt : ℝ)) : EReal)

end Cert.TrxSpec

end
-- ==== Proof.KILoop.lean ====
/-
  The kernel body's sixteen-trip loop, as values. Each trip reads a 64-column chunk of the three 128 × 1024 input
  blocks and the length column and adds to three carried sums: per row and code, how many of the chunk's tokens are that
  code (for the two token blocks), and per row the chunk's sum of the log-scaled amounts at the positions below the row's
  length. Sixteen chunks of 64 positions make the 1024 positions of a row, so after the loop the three sums are the
  sums over all positions.
-/
import proofs.«405439_j73753178407534_2_alg».proof.Proof.KIBody
import proofs.«405439_j73753178407534_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

namespace Cert.KernelIdeal.LoopValue

open Cert.KernelIdeal Cert.KernelIdeal.Gen Cert.KernelIdeal.Body Cert.TrxSpec
open Idealize.ShloMosaic Idealize.ShloMosaic.ValueIdx

/-! ## One trip of the loop, spelt out -/

section Trip
variable {F : FTy → Type} [FloatOps F]

/-- One trip of the loop on the carried triple: each of the three running sums is updated from the trip's 64-column chunk of
    its input block (and, for the third, the length column). -/
theorem tripR_eq (𝒱 : Variants) (bd : Option 𝒱.V) (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (X_arg1 : BufTy.Contents (Elt F) arg1.view.ty) (X_arg2 : BufTy.Contents (Elt F) arg2.view.ty)
    (X_arg3 : BufTy.Contents (Elt F) arg3.view.ty) (X_arg4 : BufTy.Contents (Elt F) arg4.view.ty)
    (k : Fin k0_t1_loop.trips) (acc : FVec F S128x512 .f32 × FVec F S128x128 .f32 × FVec F S128x1 .f32) :
    tripR_k0_t1 (F := F) 𝒱 c bd i arg1 harg1 arg2 harg2 arg3 harg3 arg4 harg4 arg5 harg5 arg6 harg6 arg7 harg7 X_arg1 X_arg2 X_arg3 X_arg4 k acc
      = (k0_pay8 acc.1 (View.readAt (Elt F) arg1.view (Rect.unit (s := S128x1024) (k0_off1 k) S128x64.size (k0_off1_inb k)).toLoadRect X_arg1),
         k0_pay9 acc.2.1 (View.readAt (Elt F) arg2.view (Rect.unit (s := S128x1024) (k0_off1 k) S128x64.size (k0_off1_inb k)).toLoadRect X_arg2),
         k0_pay4 acc.2.2 (View.readAt (Elt F) arg3.view (Rect.unit (s := S128x1024) (k0_off1 k) S128x64.size (k0_off1_inb k)).toLoadRect X_arg3)
           (k0_pay10 0#32 1#32 k (View.readAt (Elt F) arg4.view (Rect.unit (s := S128x1) ![0, 0] S128x1.size inb_S128x1_S128x1_0_0).toLoadRect X_arg4))
           (k0_pay11 (View.readAt (Elt F) arg3.view (Rect.unit (s := S128x1024) (k0_off1 k) S128x64.size (k0_off1_inb k)).toLoadRect X_arg3))
           (k0_pay12 (View.readAt (Elt F) arg3.view (Rect.unit (s := S128x1024) (k0_off1 k) S128x64.size (k0_off1_inb k)).toLoadRect X_arg3))) := by
  unfold tripR_k0_t1 trip_k0_t1
  rfl

end Trip

/-! ## The one-hot count of a chunk -/

/-- A 32-bit word is the code `k` exactly when it equals the word of `k`: the compare, widened and converted, is the
    0/1 indicator. -/
theorem onehot_word (w : BitVec 32) (k : ℕ) :
    (FloatOps.sitofp (F := Ideal) .f32 ((IntOp.cmpi .eq w (BitVec.ofNat 32 k)).setWidth 32) : EReal) = hit w k := by
  unfold hit
  by_cases h : w = BitVec.ofNat 32 k
  · rw [if_pos h]
    have e : IntOp.cmpi .eq w (BitVec.ofNat 32 k) = 1#1 := by
      show BitVec.ofBool (w == BitVec.ofNat 32 k) = 1#1
      rw [beq_iff_eq.mpr h]; rfl
    rw [e]
    show (((((1#1 : BitVec 1).setWidth 32).toInt : ℝ)) : EReal) = 1
    have : ((1#1 : BitVec 1).setWidth 32).toInt = 1 := by decide
    rw [this]; simp
  · rw [if_neg h]
    have e : IntOp.cmpi .eq w (BitVec.ofNat 32 k) = 0#1 := by
      show BitVec.ofBool (w == BitVec.ofNat 32 k) = 0#1
      rw [beq_eq_false_iff_ne.mpr h]; rfl
    rw [e]
    show (((((0#1 : BitVec 1).setWidth 32).toInt : ℝ)) : EReal) = 0
    have : ((0#1 : BitVec 1).setWidth 32).toInt = 0 := by decide
    rw [this]; simp

/-- The chunk's one-hot block at `(r, s, k)`: 1 if the token at `(r, s)` is the code `k`, else 0 (512 codes). -/
theorem onehot512_apply (v27 : Vec Ideal S128x64 .i32) (r : Fin 128) (s : Fin 64) (k : Fin 512) :
    (sitofp .f32 (extui 32 (cmpi .eq
        (broadcastTo S128x64x512 (shapeCast S128x64x1 v27 shapeCasts_S128x64_S128x64x1) broadcasts_S128x64x1_S128x64x512)
        (broadcastTo S128x64x512 (iota .tc S1x1x512 32 [2] iota_S1x1x512_d2_w32) broadcasts_S1x1x512_S128x64x512)) natLt_1_32)
      : FVec Ideal S128x64x512 .f32) (ix3 r s k) = hit (v27 (ix2 r s)) k.val := by
  rw [sitofp_apply, extui_apply]
  show FloatOps.sitofp (F := Ideal) .f32 ((IntOp.cmpi .eq
      (broadcastTo S128x64x512 (shapeCast S128x64x1 v27 shapeCasts_S128x64_S128x64x1) broadcasts_S128x64x1_S128x64x512 (ix3 r s k))
      (broadcastTo S128x64x512 (iota .tc S1x1x512 32 [2] iota_S1x1x512_d2_w32) broadcasts_S1x1x512_S128x64x512 (ix3 r s k))).setWidth 32) = _
  have e1 : broadcastTo S128x64x512 (shapeCast S128x64x1 v27 shapeCasts_S128x64_S128x64x1) broadcasts_S128x64x1_S128x64x512 (ix3 r s k)
      = v27 (ix2 r s) := by
    refine (broadcastTo_apply _ broadcasts_S128x64x1_S128x64x512 (ix3 r s k) (ix3 r s (0 : Fin 1)) fun a => ?_).trans ?_
    · match a with
      | ⟨0, _⟩ => rfl
      | ⟨1, _⟩ => rfl
      | ⟨2, _⟩ => rfl
    · refine shapeCast_apply v27 shapeCasts_S128x64_S128x64x1 (ix3 r s (0 : Fin 1)) (ix2 r s) ?_
      rw [Shape.rowMajor_val_three, Shape.rowMajor_val_two]
      show r.val * 64 + s.val = (r.val * 64 + s.val) * 1 + 0
      omega
  have e2 : broadcastTo S128x64x512 (iota .tc S1x1x512 32 [2] iota_S1x1x512_d2_w32) broadcasts_S1x1x512_S128x64x512 (ix3 r s k)
      = BitVec.ofNat 32 k.val := by
    refine (broadcastTo_apply _ broadcasts_S1x1x512_S128x64x512 (ix3 r s k) (ix3 (0 : Fin 1) (0 : Fin 1) k) fun a => ?_).trans ?_
    · match a with
      | ⟨0, _⟩ => rfl
      | ⟨1, _⟩ => rfl
      | ⟨2, _⟩ => rfl
    · show BitVec.ofNat 32 (0 * 512 + k.val) = _
      rw [Nat.zero_mul, Nat.zero_add]
  rw [e1, e2]
  exact onehot_word _ _

/-- The first running sum after a trip: at `(r, k)` it grows by the number of the chunk's 64 tokens of row `r` that are
    the code `k`. -/
theorem pay8_apply (acc : FVec Ideal S128x512 .f32) (v27 : Vec Ideal S128x64 .i32) (r : Fin 128) (k : Fin 512) :
    k0_pay8 (F := Ideal) acc v27 (ix2 r k) = acc (ix2 r k) + ∑ s : Fin 64, hit (v27 (ix2 r s)) k.val := by
  unfold k0_pay8
  rw [addf_apply]
  congr 1
  refine (Ideal.multiReduction_add_single _ _ reduces_S128x64x512_S128x512 _ _ (ix2 r k)).trans ?_
  refine Finset.sum_congr rfl fun (s : Fin 64) _ => ?_
  have hl : reduces_S128x64x512_S128x512.lift (ix2 r k) s = ix3 r s k := by
    funext a
    match a with
    | ⟨0, _⟩ => exact Fin.ext rfl
    | ⟨1, _⟩ => exact Fin.ext rfl
    | ⟨2, _⟩ => exact Fin.ext rfl
  rw [hl]
  exact onehot512_apply v27 r s k

/-- The same block for the second token block and its 128 codes. -/
theorem onehot128_apply (v29 : Vec Ideal S128x64 .i32) (r : Fin 128) (s : Fin 64) (k : Fin 128) :
    (sitofp .f32 (extui 32 (cmpi .eq
        (broadcastTo S128x64x128 (shapeCast S128x64x1 v29 shapeCasts_S128x64_S128x64x1) broadcasts_S128x64x1_S128x64x128)
        (broadcastTo S128x64x128 (iota .tc S1x1x128 32 [2] iota_S1x1x128_d2_w32) broadcasts_S1x1x128_S128x64x128)) natLt_1_32)
      : FVec Ideal S128x64x128 .f32) (ix3 r s k) = hit (v29 (ix2 r s)) k.val := by
  rw [sitofp_apply, extui_apply]
  show FloatOps.sitofp (F := Ideal) .f32 ((IntOp.cmpi .eq
      (broadcastTo S128x64x128 (shapeCast S128x64x1 v29 shapeCasts_S128x64_S128x64x1) broadcasts_S128x64x1_S128x64x128 (ix3 r s k))
      (broadcastTo S128x64x128 (iota .tc S1x1x128 32 [2] iota_S1x1x128_d2_w32) broadcasts_S1x1x128_S128x64x128 (ix3 r s k))).setWidth 32) = _
  have e1 : broadcastTo S128x64x128 (shapeCast S128x64x1 v29 shapeCasts_S128x64_S128x64x1) broadcasts_S128x64x1_S128x64x128 (ix3 r s k)
      = v29 (ix2 r s) := by
    refine (broadcastTo_apply _ broadcasts_S128x64x1_S128x64x128 (ix3 r s k) (ix3 r s (0 : Fin 1)) fun a => ?_).trans ?_
    · match a with
      | ⟨0, _⟩ => rfl
      | ⟨1, _⟩ => rfl
      | ⟨2, _⟩ => rfl
    · refine shapeCast_apply v29 shapeCasts_S128x64_S128x64x1 (ix3 r s (0 : Fin 1)) (ix2 r s) ?_
      rw [Shape.rowMajor_val_three, Shape.rowMajor_val_two]
      show r.val * 64 + s.val = (r.val * 64 + s.val) * 1 + 0
      omega
  have e2 : broadcastTo S128x64x128 (iota .tc S1x1x128 32 [2] iota_S1x1x128_d2_w32) broadcasts_S1x1x128_S128x64x128 (ix3 r s k)
      = BitVec.ofNat 32 k.val := by
    refine (broadcastTo_apply _ broadcasts_S1x1x128_S128x64x128 (ix3 r s k) (ix3 (0 : Fin 1) (0 : Fin 1) k) fun a => ?_).trans ?_
    · match a with
      | ⟨0, _⟩ => rfl
      | ⟨1, _⟩ => rfl
      | ⟨2, _⟩ => rfl
    · show BitVec.ofNat 32 (0 * 128 + k.val) = _
      rw [Nat.zero_mul, Nat.zero_add]
  rw [e1, e2]
  exact onehot_word _ _

/-- The second running sum after a trip: at `(r, k)` it grows by the number of the chunk's 64 tokens of row `r` that are
    the code `k`. -/
theorem pay9_apply (acc : FVec Ideal S128x128 .f32) (v29 : Vec Ideal S128x64 .i32) (r : Fin 128) (k : Fin 128) :
    k0_pay9 (F := Ideal) acc v29 (ix2 r k) = acc (ix2 r k) + ∑ s : Fin 64, hit (v29 (ix2 r s)) k.val := by
  unfold k0_pay9
  rw [addf_apply]
  congr 1
  refine (Ideal.multiReduction_add_single _ _ reduces_S128x64x128_S128x128 _ _ (ix2 r k)).trans ?_
  refine Finset.sum_congr rfl fun (s : Fin 64) _ => ?_
  have hl : reduces_S128x64x128_S128x128.lift (ix2 r k) s = ix3 r s k := by
    funext a
    match a with
    | ⟨0, _⟩ => exact Fin.ext rfl
    | ⟨1, _⟩ => exact Fin.ext rfl
    | ⟨2, _⟩ => exact Fin.ext rfl
  rw [hl]
  exact onehot128_apply v29 r s k

/-! ## The masked sum of the log-scaled amounts over a chunk -/

/-- The three float words the body names: zero, one and minus one. -/
theorem ofBits_zero_f32 : Ideal.ofBits .f32 0x00000000#32 = 0 := by simp [Ideal.ofBits, Ideal.ieee]

theorem ofBits_neg_one_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- "±1 by the sign where the magnitude is positive, the amount itself where it is not" is the sign on the extended
    reals: the only amount whose magnitude is not positive is zero, whose sign is zero. -/
theorem select_sign (a : EReal) :
    Scalar.select (Ideal.cmp .ogt (max a (-a)) 0) (Scalar.select (Ideal.cmp .olt a 0) (-1) 1) a = Ideal.sign a := by
  induction a using EReal.rec with
  | bot =>
    have h1 : Ideal.cmp .ogt (max (⊥ : EReal) (-⊥)) 0 = 1#1 := by simp [Ideal.cmp]
    have h2 : Ideal.cmp .olt (⊥ : EReal) 0 = 1#1 := by simp [Ideal.cmp]
    rw [h1, h2, select_one, select_one]; rfl
  | top =>
    have h1 : Ideal.cmp .ogt (max (⊤ : EReal) (-⊤)) 0 = 1#1 := by simp [Ideal.cmp]
    have h2 : Ideal.cmp .olt (⊤ : EReal) 0 = 0#1 := by simp [Ideal.cmp]
    rw [h1, h2, select_one, select_zero]; rfl
  | coe x =>
    show _ = ((SignType.sign x : ℝ) : EReal)
    rcases lt_trichotomy x 0 with hx | hx | hx
    · have h1 : Ideal.cmp .ogt (max (x : EReal) (-(x : EReal))) 0 = 1#1 := by
        have : (0 : EReal) < max (x : EReal) (-(x : EReal)) := lt_max_of_lt_right (by
          rw [← EReal.coe_neg]; exact_mod_cast neg_pos.mpr hx)
        simp [Ideal.cmp, this]
      have h2 : Ideal.cmp .olt (x : EReal) 0 = 1#1 := by
        have : (x : EReal) < 0 := by exact_mod_cast hx
        simp [Ideal.cmp, this]
      rw [h1, h2, select_one, select_one, sign_neg hx]; simp
    · subst hx
      have h1 : Ideal.cmp .ogt (max ((0 : ℝ) : EReal) (-((0 : ℝ) : EReal))) 0 = 0#1 := by simp [Ideal.cmp]
      rw [h1, select_zero, sign_zero]; simp
    · have h1 : Ideal.cmp .ogt (max (x : EReal) (-(x : EReal))) 0 = 1#1 := by
        have : (0 : EReal) < max (x : EReal) (-(x : EReal)) := lt_max_of_lt_left (by exact_mod_cast hx)
        simp [Ideal.cmp, this]
      have h2 : Ideal.cmp .olt (x : EReal) 0 = 0#1 := by
        have : ¬ (x : EReal) < 0 := not_lt.mpr (by exact_mod_cast hx.le)
        simp [Ideal.cmp, this]
      rw [h1, h2, select_one, select_zero, sign_pos hx]; simp

/-- The column word of position `s` of chunk `k`: `64 k + s`, as the body computes it. -/
theorem col_word (k : Fin k0_t1_loop.trips) (s : Fin 64) :
    IntOp.addi (Scalar.muli (Scf.iv 0#32 1#32 k) 64#32) (BitVec.ofNat 32 (0 * 64 + s.val)) = BitVec.ofNat 32 (64 * k.val + s.val) := by
  apply BitVec.eq_of_toNat_eq
  simp only [IntOp.addi, Scalar.muli, IntOp.muli, Scf.iv, BitVec.toNat_add, BitVec.toNat_mul, BitVec.toNat_ofNat]
  omega

/-- A signed compare, widened and converted, is the 0/1 indicator. -/
theorem slt_word (t n : BitVec 32) :
    (FloatOps.sitofp (F := Ideal) .f32 ((IntOp.cmpi .slt t n).setWidth 32) : EReal) = if t.slt n = true then 1 else 0 := by
  show (((((BitVec.ofBool (t.slt n)).setWidth 32).toInt : ℝ)) : EReal) = _
  cases h : t.slt n
  · have : ((BitVec.ofBool false).setWidth 32).toInt = 0 := by decide
    rw [this]; simp
  · have : ((BitVec.ofBool true).setWidth 32).toInt = 1 := by decide
    rw [this]; simp

/-- The mask of chunk `k` at `(r, s)`: 1 if column `64 k + s` is below row `r`'s length word, else 0. -/
theorem pay10_apply (k : Fin k0_t1_loop.trips) (v61 : Vec Ideal S128x1 .i32) (r : Fin 128) (s : Fin 64) :
    k0_pay10 (F := Ideal) 0#32 1#32 k v61 (ix2 r s) = below (64 * k.val + s.val) (v61 (ix2 r (0 : Fin 1))) := by
  unfold k0_pay10
  rw [sitofp_apply, extui_apply]
  show FloatOps.sitofp (F := Ideal) .f32 ((IntOp.cmpi .slt
      (broadcastTo S128x64 (addi (broadcast S1x64 (Scalar.muli (Scf.iv 0#32 1#32 k) 64#32)) (iota .tc S1x64 32 [1] iota_S1x64_d1_w32))
        broadcasts_S1x64_S128x64 (ix2 r s))
      (broadcastTo S128x64 (shapeCast S128x1 v61 shapeCasts_S128x1_S128x1) broadcasts_S128x1_S128x64 (ix2 r s))).setWidth 32) = _
  have e1 : broadcastTo S128x64 (addi (broadcast S1x64 (Scalar.muli (Scf.iv 0#32 1#32 k) 64#32)) (iota .tc S1x64 32 [1] iota_S1x64_d1_w32))
        broadcasts_S1x64_S128x64 (ix2 r s) = BitVec.ofNat 32 (64 * k.val + s.val) := by
    refine (broadcastTo_apply _ broadcasts_S1x64_S128x64 (ix2 r s) (ix2 (0 : Fin 1) s) fun a => ?_).trans ?_
    · match a with
      | ⟨0, _⟩ => rfl
      | ⟨1, _⟩ => rfl
    · exact col_word k s
  have e2 : broadcastTo S128x64 (shapeCast S128x1 v61 shapeCasts_S128x1_S128x1) broadcasts_S128x1_S128x64 (ix2 r s)
      = v61 (ix2 r (0 : Fin 1)) := by
    refine (broadcastTo_apply _ broadcasts_S128x1_S128x64 (ix2 r s) (ix2 r (0 : Fin 1)) fun a => ?_).trans ?_
    · match a with
      | ⟨0, _⟩ => rfl
      | ⟨1, _⟩ => rfl
    · exact shapeCast_apply v61 shapeCasts_S128x1_S128x1 (ix2 r (0 : Fin 1)) (ix2 r (0 : Fin 1)) rfl
  rw [e1, e2]
  exact slt_word _ _

/-- The third running sum after a trip: at row `r` it grows by the chunk's masked sum of the log-scaled amounts. -/
theorem pay4_apply (acc : FVec Ideal S128x1 .f32) (v31 : Vec Ideal S128x64 .f32) (k : Fin k0_t1_loop.trips)
    (v61 : Vec Ideal S128x1 .i32) (r : Fin 128) (z : Fin 1) :
    k0_pay4 (F := Ideal) acc v31 (k0_pay10 0#32 1#32 k v61) (k0_pay11 v31) (k0_pay12 v31) (ix2 r z)
      = acc (ix2 r z) + ∑ s : Fin 64, logScaled (v31 (ix2 r s)) * below (64 * k.val + s.val) (v61 (ix2 r (0 : Fin 1))) := by
  unfold k0_pay4
  rw [addf_apply]
  congr 1
  refine (shapeCast_apply _ shapeCasts_S128_S128x1 (ix2 r z) (ix1 r) (by
    rw [Shape.rowMajor_val_two, Shape.rowMajor_val_one]
    show r.val = r.val * 1 + z.val
    have := z.isLt; omega)).trans ?_
  refine (Ideal.multiReduction_add_single _ _ reduces_S128x64_S128 _ _ (ix1 r)).trans ?_
  refine Finset.sum_congr rfl fun (s : Fin 64) _ => ?_
  have hl : reduces_S128x64_S128.lift (ix1 r) s = ix2 r s := by
    funext a
    match a with
    | ⟨0, _⟩ => exact Fin.ext rfl
    | ⟨1, _⟩ => exact Fin.ext rfl
  rw [hl, mulf_apply, mulf_apply, pay10_apply, select_apply]
  congr 1
  unfold logScaled
  congr 1
  rw [cmpf_apply, broadcast_apply]
  show Scalar.select (Ideal.cmp .ogt (max (v31 (ix2 r s)) (-(v31 (ix2 r s)))) (Ideal.ofBits .f32 0x00000000#32))
      (Scalar.select (Ideal.cmp .olt (v31 (ix2 r s)) (Ideal.ofBits .f32 0x00000000#32)) (Ideal.ofBits .f32 0xBF800000#32) (Ideal.ofBits .f32 0x3F800000#32))
      (v31 (ix2 r s)) = _
  rw [ofBits_zero_f32, ofBits_neg_one_f32, Ideal.ofBits_one_f32]
  exact select_sign _

/-! ## What a trip loads -/

/-- The loop runs sixteen trips. -/
theorem trips_eq : k0_t1_loop.trips = 16 := by decide

theorem trip_lt (k : Fin k0_t1_loop.trips) : k.val < 16 := Nat.lt_of_lt_of_le k.isLt k0_t1_abs.2.1

/-- Trip `k`'s chunk of a whole 128 × 1024 block holding `x` reads, at `(r, s)`, the block at `(r, 64 k + s)`. -/
theorem chunk_read {e : EltTy} (m : Memref sig .tc .vmem S128x1024 e) (hm : m.IsWhole) (x : S128x1024.Idx → Elt Ideal e)
    (k : Fin k0_t1_loop.trips) (r : Fin 128) (s : Fin 64) (h : 64 * k.val + s.val < 1024) :
    View.readAt (Elt Ideal) m.view (Rect.unit (s := S128x1024) (k0_off1 k) S128x64.size (k0_off1_inb k)).toLoadRect (hm.unread x) (ix2 r s)
      = x (ix2 r ⟨64 * k.val + s.val, h⟩) := by
  rw [View.readAt_eq_ld, hm.read_unread]
  show x ((Rect.unit (s := S128x1024) (k0_off1 k) S128x64.size (k0_off1_inb k)).idx (ix2 r s)) = _
  congr 1
  funext a
  match a with
  | ⟨0, _⟩ =>
    refine Fin.ext ?_
    show k0_off1 k 0 + 1 * r.val = r.val
    rw [k0_off1_eq]; simp
  | ⟨1, _⟩ =>
    refine Fin.ext ?_
    show k0_off1 k 1 + 1 * s.val = 64 * k.val + s.val
    rw [k0_off1_eq]; simp

/-- The whole length column holding `x` reads `x`. -/
theorem len_read (m : Memref sig .tc .vmem S128x1 .i32) (hm : m.IsWhole) (x : S128x1.Idx → Elt Ideal .i32) (r : Fin 128) :
    View.readAt (Elt Ideal) m.view (Rect.unit (s := S128x1) ![0, 0] S128x1.size inb_S128x1_S128x1_0_0).toLoadRect (hm.unread x) (ix2 r (0 : Fin 1))
      = x (ix2 r (0 : Fin 1)) := by
  rw [View.readAt_eq_ld, hm.read_unread]
  show x ((Rect.unit (s := S128x1) ![0, 0] S128x1.size inb_S128x1_S128x1_0_0).idx (ix2 r (0 : Fin 1))) = _
  congr 1
  funext a
  match a with
  | ⟨0, _⟩ => refine Fin.ext ?_; show 0 + 1 * r.val = r.val; omega
  | ⟨1, _⟩ => rfl

/-! ## Sixteen chunks of 64 make the row -/

/-- A quantity that starts at zero and grows, trip by trip, by the sum of `f` over the trip's 64 positions is after
    sixteen trips the sum of `f` over all 1024 positions. -/
theorem chunked_sum {M : Type*} [AddCommMonoid M] (f : Fin 1024 → M) (S : ℕ → M) (h0 : S 0 = 0)
    (hs : ∀ (n : ℕ) (hn : n < 16), S (n + 1) = S n + ∑ s : Fin 64, f ⟨64 * n + s.val, by have := s.isLt; omega⟩) :
    S 16 = ∑ t : Fin 1024, f t := by
  let g : ℕ → M := fun t => if h : t < 1024 then f ⟨t, h⟩ else 0
  have key : ∀ n, n ≤ 16 → S n = ∑ t ∈ Finset.range (64 * n), g t := by
    intro n
    induction n with
    | zero => intro _; rw [h0]; simp
    | succ n ih =>
      intro hn
      have hn' : n < 16 := hn
      rw [hs n hn', ih (Nat.le_of_lt hn'), show 64 * (n + 1) = 64 * n + 64 by ring, Finset.sum_range_add]
      congr 1
      rw [Finset.sum_range]
      refine Finset.sum_congr rfl fun s _ => ?_
      have : 64 * n + s.val < 1024 := by have := s.isLt; omega
      show f _ = g (64 * n + s.val)
      simp only [g, dif_pos this]
  rw [key 16 le_rfl, show 64 * 16 = 1024 by norm_num, Finset.sum_range]
  refine Finset.sum_congr rfl fun t _ => ?_
  simp only [g, dif_pos t.isLt]

/-! ## The three running sums after the loop -/

section Sums
variable (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
  (x0 x1 : Vec Ideal S128x1024 .i32) (x2 : Vec Ideal S128x1024 .f32) (x3 : Vec Ideal S128x1 .i32)

/-- The carried triple before trip `n`. -/
abbrev stN (n : ℕ) : FVec Ideal S128x512 .f32 × FVec Ideal S128x128 .f32 × FVec Ideal S128x1 .f32 :=
  st_k0_t1 (F := Ideal) Variants.none c none i arg1 harg1 arg2 harg2 arg3 harg3 arg4 harg4 arg5 harg5 arg6 harg6 arg7 harg7
    (harg1.unread x0) (harg2.unread x1) (harg3.unread x2) (harg4.unread x3)
    (k0_pay1, k0_pay2, k0_pay3) n

theorem sums_eq_stN : sums (F := Ideal) c i arg1 harg1 arg2 harg2 arg3 harg3 arg4 harg4 arg5 harg5 arg6 harg6 arg7 harg7 x0 x1 x2 x3 = stN c i arg1 harg1 arg2 harg2 arg3 harg3 arg4 harg4 arg5 harg5 arg6 harg6 arg7 harg7 x0 x1 x2 x3 16 := by
  unfold sums stN
  rw [show Scf.trips k0_t1_loop.lb k0_t1_loop.ub k0_t1_loop.st = 16 from trips_eq]

/-- One more trip: the triple before trip `n + 1` from the one before trip `n`. -/
theorem stN_succ (n : ℕ) (hn : n < 16) :
    stN c i arg1 harg1 arg2 harg2 arg3 harg3 arg4 harg4 arg5 harg5 arg6 harg6 arg7 harg7 x0 x1 x2 x3 (n + 1)
      = tripR_k0_t1 (F := Ideal) Variants.none c none i arg1 harg1 arg2 harg2 arg3 harg3 arg4 harg4 arg5 harg5 arg6 harg6 arg7 harg7
          (harg1.unread x0) (harg2.unread x1) (harg3.unread x2) (harg4.unread x3) ⟨n, trips_eq ▸ hn⟩ (stN c i arg1 harg1 arg2 harg2 arg3 harg3 arg4 harg4 arg5 harg5 arg6 harg6 arg7 harg7 x0 x1 x2 x3 n) :=
  st_k0_t1_succ (F := Ideal) Variants.none c none i arg1 harg1 arg2 harg2 arg3 harg3 arg4 harg4 arg5 harg5 arg6 harg6 arg7 harg7
    (harg1.unread x0) (harg2.unread x1) (harg3.unread x2) (harg4.unread x3) (k0_pay1, k0_pay2, k0_pay3) ⟨n, trips_eq ▸ hn⟩

theorem sums_mcc (r : Fin 128) (k : Fin 512) :
    (sums (F := Ideal) c i arg1 harg1 arg2 harg2 arg3 harg3 arg4 harg4 arg5 harg5 arg6 harg6 arg7 harg7 x0 x1 x2 x3).1 (ix2 r k) = ∑ t : Fin 1024, hit (x0 (ix2 r t)) k.val := by
  rw [sums_eq_stN]
  refine chunked_sum (fun t => hit (x0 (ix2 r t)) k.val) (fun n => (stN c i arg1 harg1 arg2 harg2 arg3 harg3 arg4 harg4 arg5 harg5 arg6 harg6 arg7 harg7 x0 x1 x2 x3 n).1 (ix2 r k)) ?_ fun n hn => ?_
  · show k0_pay1 (F := Ideal) (ix2 r k) = 0
    unfold k0_pay1
    exact ofBits_zero_f32
  · show (stN c i arg1 harg1 arg2 harg2 arg3 harg3 arg4 harg4 arg5 harg5 arg6 harg6 arg7 harg7 x0 x1 x2 x3 (n + 1)).1 (ix2 r k) = _
    rw [stN_succ c i arg1 harg1 arg2 harg2 arg3 harg3 arg4 harg4 arg5 harg5 arg6 harg6 arg7 harg7 x0 x1 x2 x3 n hn, tripR_eq]
    show k0_pay8 (F := Ideal) _ _ (ix2 r k) = _
    rw [pay8_apply]
    congr 1
    refine Finset.sum_congr rfl fun s _ => ?_
    rw [chunk_read arg1 harg1 x0 ⟨n, trips_eq ▸ hn⟩ r s (by show 64 * n + s.val < 1024; have := s.isLt; omega)]

theorem sums_trx (r : Fin 128) (k : Fin 128) :
    (sums (F := Ideal) c i arg1 harg1 arg2 harg2 arg3 harg3 arg4 harg4 arg5 harg5 arg6 harg6 arg7 harg7 x0 x1 x2 x3).2.1 (ix2 r k) = ∑ t : Fin 1024, hit (x1 (ix2 r t)) k.val := by
  rw [sums_eq_stN]
  refine chunked_sum (fun t => hit (x1 (ix2 r t)) k.val) (fun n => (stN c i arg1 harg1 arg2 harg2 arg3 harg3 arg4 harg4 arg5 harg5 arg6 harg6 arg7 harg7 x0 x1 x2 x3 n).2.1 (ix2 r k)) ?_ fun n hn => ?_
  · show k0_pay2 (F := Ideal) (ix2 r k) = 0
    unfold k0_pay2
    exact ofBits_zero_f32
  · show (stN c i arg1 harg1 arg2 harg2 arg3 harg3 arg4 harg4 arg5 harg5 arg6 harg6 arg7 harg7 x0 x1 x2 x3 (n + 1)).2.1 (ix2 r k) = _
    rw [stN_succ c i arg1 harg1 arg2 harg2 arg3 harg3 arg4 harg4 arg5 harg5 arg6 harg6 arg7 harg7 x0 x1 x2 x3 n hn, tripR_eq]
    show k0_pay9 (F := Ideal) _ _ (ix2 r k) = _
    rw [pay9_apply]
    congr 1
    refine Finset.sum_congr rfl fun s _ => ?_
    rw [chunk_read arg2 harg2 x1 ⟨n, trips_eq ▸ hn⟩ r s (by show 64 * n + s.val < 1024; have := s.isLt; omega)]

theorem sums_var (r : Fin 128) (z : Fin 1) :
    (sums (F := Ideal) c i arg1 harg1 arg2 harg2 arg3 harg3 arg4 harg4 arg5 harg5 arg6 harg6 arg7 harg7 x0 x1 x2 x3).2.2 (ix2 r z)
      = ∑ t : Fin 1024, logScaled (x2 (ix2 r t)) * below t.val (x3 (ix2 r 0)) := by
  rw [sums_eq_stN]
  refine chunked_sum (fun t => logScaled (x2 (ix2 r t)) * below t.val (x3 (ix2 r 0)))
    (fun n => (stN c i arg1 harg1 arg2 harg2 arg3 harg3 arg4 harg4 arg5 harg5 arg6 harg6 arg7 harg7 x0 x1 x2 x3 n).2.2 (ix2 r z)) ?_ fun n hn => ?_
  · show k0_pay3 (F := Ideal) (ix2 r z) = 0
    unfold k0_pay3
    exact ofBits_zero_f32
  · show (stN c i arg1 harg1 arg2 harg2 arg3 harg3 arg4 harg4 arg5 harg5 arg6 harg6 arg7 harg7 x0 x1 x2 x3 (n + 1)).2.2 (ix2 r z) = _
    rw [stN_succ c i arg1 harg1 arg2 harg2 arg3 harg3 arg4 harg4 arg5 harg5 arg6 harg6 arg7 harg7 x0 x1 x2 x3 n hn, tripR_eq]
    show k0_pay4 (F := Ideal) _ _ (k0_pay10 0#32 1#32 _ _) (k0_pay11 _) (k0_pay12 _) (ix2 r z) = _
    rw [pay4_apply, len_read arg4 harg4 x3 r]
    refine congrArg (fun w => _ + w) (Finset.sum_congr rfl fun s _ => ?_)
    rw [chunk_read arg3 harg3 x2 ⟨n, trips_eq ▸ hn⟩ r s (by show 64 * n + s.val < 1024; have := s.isLt; omega)]

end Sums

end Cert.KernelIdeal.LoopValue

end
-- ==== Proof.KIStretch.lean ====
/-
  The three column stretches the body stores after its loop, read at an index of the 128 × 768 result block.
  Columns 0..511 hold the product of the first running sum, scaled by the weight of one position, with the 512 × 512
  table block; columns 512..639 the same for the second running sum and the 128 × 128 table block; column 640 holds
  the third running sum divided by the row's length (the 127 columns after it are zeros and are not read here).
  The stretches are disjoint column ranges, so an index reads the payload of the one stretch that holds its column.
-/
import proofs.«405439_j73753178407534_2_alg».proof.Proof.KIBody
import proofs.«405439_j73753178407534_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.StretchValue

open Cert.KernelIdeal Cert.KernelIdeal.Gen Cert.KernelIdeal.Body Cert.TrxSpec
open Idealize.ShloMosaic Idealize.ShloMosaic.ValueIdx

/-! ## The operand indices of the two products

Both products contract the left operand's columns with the right operand's rows: at output index (r, c) and
contraction coordinate k the left operand is read at (r, k) and the right one at (k, c). -/

theorem lhs_mcc_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem lhs_mcc_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem rhs_mcc_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem rhs_mcc_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

theorem lhs_trx_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_trx_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhs_trx_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhs_trx_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-! ## The payloads at an index -/

/-- The first stretch's payload at (r, q): the sum over the table's rows k of (a[r, k] · weight) · w[k, q]; the zero
    accumulator adds nothing and the shape cast to the same shape is the identity. -/
theorem k0_pay5_apply (a : FVec Ideal S128x512 .f32) (w : Vec Ideal S512x512 .f32) (r : Fin 128) (q : Fin 512) :
    k0_pay5 (F := Ideal) a w (ix2 r q) = ∑ k : Fin 512, (a (ix2 r k) * posWeight) * w (ix2 k q) := by
  unfold k0_pay5
  simp only [shapeCast_self, matmul]
  rw [Ideal.matmul_constant_zero_apply, ← Equiv.sum_comp (ValueIdx.contrEquiv1 dot_S128x512_S512x512_S128x512_1_0_0_1_n_n 512 rfl rfl).symm]
  refine Finset.sum_congr rfl fun k _ => ?_
  have hk := ValueIdx.contrEquiv1_symm_val dot_S128x512_S512x512_S128x512_1_0_0_1_n_n 512 rfl rfl k
  have el : dot_S128x512_S512x512_S128x512_1_0_0_1_n_n.lhsIdx (ix2 r q) ((ValueIdx.contrEquiv1 dot_S128x512_S512x512_S128x512_1_0_0_1_n_n 512 rfl rfl).symm k) = ix2 r k := funext fun a => Fin.ext (by
    match a with
    | ⟨0, _⟩ => exact lhs_mcc_0 _ _
    | ⟨1, _⟩ => exact (lhs_mcc_1 _ _).trans hk)
  have er : dot_S128x512_S512x512_S128x512_1_0_0_1_n_n.rhsIdx (ix2 r q) ((ValueIdx.contrEquiv1 dot_S128x512_S512x512_S128x512_1_0_0_1_n_n 512 rfl rfl).symm k) = ix2 k q := funext fun a => Fin.ext (by
    match a with
    | ⟨0, _⟩ => exact (rhs_mcc_0 _ _).trans hk
    | ⟨1, _⟩ => exact rhs_mcc_1 _ _)
  rw [el, er]
  rfl

/-- The second stretch's payload at (r, q), likewise over the 128 rows of its table. -/
theorem k0_pay6_apply (a : FVec Ideal S128x128 .f32) (w : Vec Ideal S128x128 .f32) (r : Fin 128) (q : Fin 128) :
    k0_pay6 (F := Ideal) a w (ix2 r q) = ∑ k : Fin 128, (a (ix2 r k) * posWeight) * w (ix2 k q) := by
  unfold k0_pay6
  simp only [shapeCast_self, matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 r q) ((ValueIdx.contrEquiv1 dot_S128x128_S128x128_S128x128_1_0_0_1_n_n 128 rfl rfl).symm k) = ix2 r k := funext fun a => Fin.ext (by
    match a with
    | ⟨0, _⟩ => exact lhs_trx_0 _ _
    | ⟨1, _⟩ => exact (lhs_trx_1 _ _).trans hk)
  have er : dot_S128x128_S128x128_S128x128_1_0_0_1_n_n.rhsIdx (ix2 r q) ((ValueIdx.contrEquiv1 dot_S128x128_S128x128_S128x128_1_0_0_1_n_n 128 rfl rfl).symm k) = ix2 k q := funext fun a => Fin.ext (by
    match a with
    | ⟨0, _⟩ => exact (rhs_trx_0 _ _).trans hk
    | ⟨1, _⟩ => exact rhs_trx_1 _ _)
  rw [el, er]
  rfl

/-- The third stretch's payload at column 0 lies in the first piece of the concatenation, the 128 × 1 column of
    quotients: the running sum at row r over the row's length read as a signed integer. -/
theorem k0_pay7_apply (s : FVec Ideal S128x1 .f32) (v : Vec Ideal S128x1 .i32) (r : Fin 128) :
    k0_pay7 (F := Ideal) s v (ix2 r (0 : Fin 128))
      = Ideal.div (s (ix2 r 0)) ((((v (ix2 r 0)).toInt : ℝ)) : EReal) := by
  unfold k0_pay7
  simp only [shapeCast_self]
  rw [concatenate_pair_apply_left (1 : Fin S128x128.rank) _ _ Facts₀.concatenates_S128x1_S128x127_S128x128_d1 (ix2 r (0 : Fin 128)) rfl (ix2 r (0 : Fin 1))
    (fun b => by match b with
      | ⟨0, _⟩ => rfl
      | ⟨1, _⟩ => rfl)]
  rfl

/-! ## Which stretch an index reads

The list holds the stretch at columns 640..767 first, then 512..639, then 0..511. An index is passed over by every
stretch whose column range misses its column, and under the stretch that holds it reads the payload at the column less
the stretch's first column. -/

/-- The whole-block rectangles of the loads start at row and column zero. -/
theorem hz2 : (![0, 0] : Fin 2 → Nat) = fun _ => 0 := funext fun a => by
  match a with
  | ⟨0, _⟩ => rfl
  | ⟨1, _⟩ => rfl

theorem not_mem_rMean (r : Fin 128) (j : Fin 768) (hj : j.val < 640) : ix2 r j ∉ (rMean).set := fun h => by
  have h1 := ((Rect.mem_set_unit (inb := Facts₀.inb_S128x768_S128x128_0_640)).mp h 1).1
  have h2 : 640 ≤ j.val := h1
  omega

theorem not_mem_rTrx (r : Fin 128) (j : Fin 768) (hj : j.val < 512) : ix2 r j ∉ (rTrx).set := fun h => by
  have h1 := ((Rect.mem_set_unit (inb := Facts₀.inb_S128x768_S128x128_0_512)).mp h 1).1
  have h2 : 512 ≤ j.val := h1
  omega

/-- A column below 512 reads the last piece, at its own column. -/
theorem canon_mcc (p7 p6 : Vec Ideal S128x128 .f32) (p5 : Vec Ideal S128x512 .f32) (r : Fin 128) (j : Fin 768) (hj : j.val < 512) :
    View.canon ([⟨rMean, p7⟩, ⟨rTrx, p6⟩, ⟨rMcc, p5⟩] : List (View.Piece (Elt Ideal) S128x768 .f32)) (ix2 r j) = p5 (ix2 r (⟨j.val, hj⟩ : Fin 512)) := by
  refine (View.canon_cons_of_not_mem (⟨rMean, p7⟩ : View.Piece (Elt Ideal) S128x768 .f32) [⟨rTrx, p6⟩, ⟨rMcc, p5⟩] (not_mem_rMean r j (by omega))).trans ?_
  refine (View.canon_cons_of_not_mem (⟨rTrx, p6⟩ : View.Piece (Elt Ideal) S128x768 .f32) [⟨rMcc, p5⟩] (not_mem_rTrx r j hj)).trans ?_
  have e : ix2 r j = rMcc.emb (ix2 r (⟨j.val, hj⟩ : Fin 512)) := funext fun a => Fin.ext (by
    match a with
    | ⟨0, _⟩ => show r.val = 0 + 1 * r.val; omega
    | ⟨1, _⟩ => show j.val = 0 + 1 * j.val; omega)
  rw [e]
  exact View.canon_cons_emb rMcc p5 [] _

/-- A column from 512 up to 639 reads the middle piece, at its column less 512. -/
theorem canon_trx (p7 p6 : Vec Ideal S128x128 .f32) (p5 : Vec Ideal S128x512 .f32) (r : Fin 128) (j : Fin 768) (hlo : 512 ≤ j.val) (hhi : j.val < 640) :
    View.canon ([⟨rMean, p7⟩, ⟨rTrx, p6⟩, ⟨rMcc, p5⟩] : List (View.Piece (Elt Ideal) S128x768 .f32)) (ix2 r j) = p6 (ix2 r (⟨j.val - 512, by omega⟩ : Fin 128)) := by
  refine (View.canon_cons_of_not_mem (⟨rMean, p7⟩ : View.Piece (Elt Ideal) S128x768 .f32) [⟨rTrx, p6⟩, ⟨rMcc, p5⟩] (not_mem_rMean r j hhi)).trans ?_
  have e : ix2 r j = rTrx.emb (ix2 r (⟨j.val - 512, by omega⟩ : Fin 128)) := funext fun a => Fin.ext (by
    match a with
    | ⟨0, _⟩ => show r.val = 0 + 1 * r.val; omega
    | ⟨1, _⟩ => show j.val = 512 + 1 * (j.val - 512); omega)
  rw [e]
  exact View.canon_cons_emb rTrx p6 _ _

/-- Column 640 reads the first piece, at its column 0. -/
theorem canon_mean (p7 p6 : Vec Ideal S128x128 .f32) (p5 : Vec Ideal S128x512 .f32) (r : Fin 128) (j : Fin 768) (hj : j.val = 640) :
    View.canon ([⟨rMean, p7⟩, ⟨rTrx, p6⟩, ⟨rMcc, p5⟩] : List (View.Piece (Elt Ideal) S128x768 .f32)) (ix2 r j) = p7 (ix2 r (0 : Fin 128)) := by
  have e : ix2 r j = rMean.emb (ix2 r (0 : Fin 128)) := funext fun a => Fin.ext (by
    match a with
    | ⟨0, _⟩ => show r.val = 0 + 1 * r.val; omega
    | ⟨1, _⟩ => show j.val = 640 + 1 * 0; omega)
  rw [e]
  exact View.canon_cons_emb rMean p7 _ _

/-! ## What the loads after the loop read

Each of the three loads reads a whole staging buffer through the full-size rectangle at offset zero, so it reads the
buffer's contents. -/

theorem read_tabMcc (arg5 : Memref sig .tc .vmem S512x512 .f32) (harg5 : arg5.IsWhole) (x4 : Vec Ideal S512x512 .f32) :
    View.readAt (Elt Ideal) arg5.view rTabMcc.toLoadRect (harg5.unread x4) = x4 := by
  simp only [View.readAt_eq_ld, harg5.read_unread]
  exact View.ld_unit_zero (S := S512x512) hz2 _ x4

theorem read_tabTrx (arg6 : Memref sig .tc .vmem S128x128 .f32) (harg6 : arg6.IsWhole) (x5 : Vec Ideal S128x128 .f32) :
    View.readAt (Elt Ideal) arg6.view rTabTrx.toLoadRect (harg6.unread x5) = x5 := by
  simp only [View.readAt_eq_ld, harg6.read_unread]
  exact View.ld_unit_zero (S := S128x128) hz2 _ x5

theorem read_len (arg4 : Memref sig .tc .vmem S128x1 .i32) (harg4 : arg4.IsWhole) (x3 : Vec Ideal S128x1 .i32) :
    View.readAt (Elt Ideal) arg4.view rLen.toLoadRect (harg4.unread x3) = x3 := by
  simp only [View.readAt_eq_ld, harg4.read_unread]
  exact View.ld_unit_zero (S := S128x1) hz2 _ x3

/-! ## The result block at an index -/

/-- Columns 0..511: the first running sum, each entry times the weight of one position, against the 512 × 512 table. -/
theorem outBlk_mcc (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (x0 x1 : Vec Ideal S128x1024 .i32) (x2 : Vec Ideal S128x1024 .f32) (x3 : Vec Ideal S128x1 .i32) (x4 : Vec Ideal S512x512 .f32) (x5 : Vec Ideal S128x128 .f32)
    (r : Fin 128) (j : Fin 768) (hj : j.val < 512) :
    outBlk (F := Ideal) c i arg1 harg1 arg2 harg2 arg3 harg3 arg4 harg4 arg5 harg5 arg6 harg6 arg7 harg7 x0 x1 x2 x3 x4 x5 (ix2 r j)
      = ∑ k : Fin 512, ((sums (F := Ideal) c i arg1 harg1 arg2 harg2 arg3 harg3 arg4 harg4 arg5 harg5 arg6 harg6 arg7 harg7 x0 x1 x2 x3).1 (ix2 r k) * posWeight) * x4 (ix2 k (⟨j.val, hj⟩ : Fin 512)) := by
  unfold outBlk
  generalize sums (F := Ideal) c i arg1 harg1 arg2 harg2 arg3 harg3 arg4 harg4 arg5 harg5 arg6 harg6 arg7 harg7 x0 x1 x2 x3 = S
  rw [canon_mcc _ _ _ r j hj, k0_pay5_apply, read_tabMcc]

/-- Columns 512..639: the second running sum likewise against the 128 × 128 table. -/
theorem outBlk_trx (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (x0 x1 : Vec Ideal S128x1024 .i32) (x2 : Vec Ideal S128x1024 .f32) (x3 : Vec Ideal S128x1 .i32) (x4 : Vec Ideal S512x512 .f32) (x5 : Vec Ideal S128x128 .f32)
    (r : Fin 128) (j : Fin 768) (hlo : 512 ≤ j.val) (hhi : j.val < 640) :
    outBlk (F := Ideal) c i arg1 harg1 arg2 harg2 arg3 harg3 arg4 harg4 arg5 harg5 arg6 harg6 arg7 harg7 x0 x1 x2 x3 x4 x5 (ix2 r j)
      = ∑ k : Fin 128, ((sums (F := Ideal) c i arg1 harg1 arg2 harg2 arg3 harg3 arg4 harg4 arg5 harg5 arg6 harg6 arg7 harg7 x0 x1 x2 x3).2.1 (ix2 r k) * posWeight) * x5 (ix2 k (⟨j.val - 512, by omega⟩ : Fin 128)) := by
  unfold outBlk
  generalize sums (F := Ideal) c i arg1 harg1 arg2 harg2 arg3 harg3 arg4 harg4 arg5 harg5 arg6 harg6 arg7 harg7 x0 x1 x2 x3 = S
  rw [canon_trx _ _ _ r j hlo hhi, k0_pay6_apply, read_tabTrx]

/-- Column 640: the third running sum at the row over the row's length. -/
theorem outBlk_mean (c : Dev nD) (i : grid0.Coords) (arg1 : Memref sig .tc .vmem S128x1024 .i32) (harg1 : arg1.IsWhole) (arg2 : Memref sig .tc .vmem S128x1024 .i32) (harg2 : arg2.IsWhole)
    (arg3 : Memref sig .tc .vmem S128x1024 .f32) (harg3 : arg3.IsWhole) (arg4 : Memref sig .tc .vmem S128x1 .i32) (harg4 : arg4.IsWhole)
    (arg5 : Memref sig .tc .vmem S512x512 .f32) (harg5 : arg5.IsWhole) (arg6 : Memref sig .tc .vmem S128x128 .f32) (harg6 : arg6.IsWhole)
    (arg7 : Memref sig .tc .vmem S128x768 .f32) (harg7 : arg7.IsWhole)
    (x0 x1 : Vec Ideal S128x1024 .i32) (x2 : Vec Ideal S128x1024 .f32) (x3 : Vec Ideal S128x1 .i32) (x4 : Vec Ideal S512x512 .f32) (x5 : Vec Ideal S128x128 .f32)
    (r : Fin 128) (j : Fin 768) (hj : j.val = 640) :
    outBlk (F := Ideal) c i arg1 harg1 arg2 harg2 arg3 harg3 arg4 harg4 arg5 harg5 arg6 harg6 arg7 harg7 x0 x1 x2 x3 x4 x5 (ix2 r j)
      = Ideal.div ((sums (F := Ideal) c i arg1 harg1 arg2 harg2 arg3 harg3 arg4 harg4 arg5 harg5 arg6 harg6 arg7 harg7 x0 x1 x2 x3).2.2 (ix2 r 0)) ((((x3 (ix2 r 0)).toInt : ℝ)) : EReal) := by
  unfold outBlk
  generalize sums (F := Ideal) c i arg1 harg1 arg2 harg2 arg3 harg3 arg4 harg4 arg5 harg5 arg6 harg6 arg7 harg7 x0 x1 x2 x3 = S
  rw [canon_mean _ _ _ r j hj, k0_pay7_apply, read_len]

end Cert.KernelIdeal.StretchValue

end
-- ==== Proof.KIBlocks.lean ====
/-
  Each input window's block at a grid point, read entry by entry off the ARGUMENT arrays.  The three 128-row blocks
  are rows 128 t … 128 t + 127 of their arrays; the length column is the same rows of the reshaped length vector, so
  its entry is the vector's; the two weight tables are staged whole, and each is its argument padded with zeros on the
  high side, so an entry is the argument's where both coordinates are inside it and zero elsewhere.
-/
import proofs.«405439_j73753178407534_2_alg».proof.Proof.KIAround
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.BlockReads

open Cert.KernelIdeal Cert.KernelIdeal.Gen Cert.KernelIdeal.Around
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The index maps over the grid -/

/-- The three row-block windows and the length window sit at block row `t`, block column `0`; the two tables at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The three row blocks

Window `w ∈ {0, 1, 2}` holds at point `t` the block at block row `t`, block column `0` of its argument array, blocks being
`128 × 1024`: local entry `(r, p)` is the array's entry `(128 t + r, p)`; and no host operation before the region writes an
argument array, so the array is as launched. -/

/-- Entry `(r, p)` of the first token block at point `t` is entry `(128 t + r, p)` of the first argument. -/
theorem blk_mcc (m : (ℓ : Loc nD τ sig) → Buf (Elt Ideal) ℓ) (c : Dev nD) (t : Fin cfg0.N) (r : Fin 128) (p : Fin 1024) (R : Fin 16384)
    (hR : R.val = 128 * t.val + r.val) :
    iblk (F := Ideal) m c 0 t (ix2 r p) = m ((c : Thread nD τ).loc main_arg0) (ix2 R p) := by
  obtain ⟨e0, e1, e2, e3, e4, e5, -⟩ := idx_facts t
  rw [← V_main_arg0 m c]
  show V m c main_arg0 (((cfg0.win 0).blk t).view.emb (ix2 r p)) = V m c main_arg0 (ix2 R p)
  apply congrArg
  funext a; apply Fin.ext
  match a with
  | ⟨0, _⟩ => show win0_0.index t (0 : Fin 2) * 128 + 1 * r.val = R.val; omega
  | ⟨1, _⟩ => show win0_0.index t (1 : Fin 2) * 1024 + 1 * p.val = p.val; omega

/-- Entry `(r, p)` of the second token block at point `t` is entry `(128 t + r, p)` of the second argument. -/
theorem blk_trx (m : (ℓ : Loc nD τ sig) → Buf (Elt Ideal) ℓ) (c : Dev nD) (t : Fin cfg0.N) (r : Fin 128) (p : Fin 1024) (R : Fin 16384)
    (hR : R.val = 128 * t.val + r.val) :
    iblk (F := Ideal) m c 1 t (ix2 r p) = m ((c : Thread nD τ).loc main_arg1) (ix2 R p) := by
  obtain ⟨e0, e1, e2, e3, e4, e5, -⟩ := idx_facts t
  rw [← V_main_arg1 m c]
  show V m c main_arg1 (((cfg0.win 1).blk t).view.emb (ix2 r p)) = V m c main_arg1 (ix2 R p)
  apply congrArg
  funext a; apply Fin.ext
  match a with
  | ⟨0, _⟩ => show win0_1.index t (0 : Fin 2) * 128 + 1 * r.val = R.val; omega
  | ⟨1, _⟩ => show win0_1.index t (1 : Fin 2) * 1024 + 1 * p.val = p.val; omega

/-- Entry `(r, p)` of the amount block at point `t` is entry `(128 t + r, p)` of the third argument. -/
theorem blk_amt (m : (ℓ : Loc nD τ sig) → Buf (Elt Ideal) ℓ) (c : Dev nD) (t : Fin cfg0.N) (r : Fin 128) (p : Fin 1024) (R : Fin 16384)
    (hR : R.val = 128 * t.val + r.val) :
    iblk (F := Ideal) m c 2 t (ix2 r p) = m ((c : Thread nD τ).loc main_arg2) (ix2 R p) := by
  obtain ⟨e0, e1, e2, e3, e4, e5, -⟩ := idx_facts t
  rw [← V_main_arg2 m c]
  show V m c main_arg2 (((cfg0.win 2).blk t).view.emb (ix2 r p)) = V m c main_arg2 (ix2 R p)
  apply congrArg
  funext a; apply Fin.ext
  match a with
  | ⟨0, _⟩ => show win0_2.index t (0 : Fin 2) * 128 + 1 * r.val = R.val; omega
  | ⟨1, _⟩ => show win0_2.index t (1 : Fin 2) * 1024 + 1 * p.val = p.val; omega

/-! ## The length column -/

/-- The reshaped length vector, as the region finds it: the `16384 × 1` cast of the length argument (the other host
    operations before the region write other arrays). -/
theorem V_len (m : (ℓ : Loc nD τ sig) → Buf (Elt Ideal) ℓ) (c : Dev nD) :
    (V (F := Ideal) m c main_v0 : S16384x1.Idx → BitVec 32)
      = shapeCast S16384x1 (m ((c : Thread nD τ).loc main_arg3) : S16384.Idx → BitVec 32) shapeCasts_S16384_S16384x1 := by
  dsimp only [V, V0]
  simp only [hostOps0, hostOps0_1, hostOps0_2, hostOps0_3, List.flatten_cons, List.flatten_nil, List.append_nil, List.cons_append,
    List.nil_append]
  after_results
  rfl

/-- Entry `(r, 0)` of the length block at point `t` is entry `128 t + r` of the length argument: the block is rows
    `128 t …` of the one-column cast, and the cast keeps row-major positions, `R · 1 + 0 = R`. -/
theorem blk_len (m : (ℓ : Loc nD τ sig) → Buf (Elt Ideal) ℓ) (c : Dev nD) (t : Fin cfg0.N) (r : Fin 128) (z : Fin 1) (R : Fin 16384)
    (hR : R.val = 128 * t.val + r.val) :
    iblk (F := Ideal) m c 3 t (ix2 r z) = m ((c : Thread nD τ).loc main_arg3) (ix1 R) := by
  obtain ⟨e0, e1, e2, e3, e4, e5, e6, e7, -⟩ := idx_facts t
  have hz : z.val = 0 := by omega
  have hemb : ((cfg0.win 3).blk t).view.emb (ix2 r z) = (ix2 R (0 : Fin 1) : S16384x1.Idx) := by
    funext a; apply Fin.ext
    match a with
    | ⟨0, _⟩ => show win0_3.index t (0 : Fin 2) * 128 + 1 * r.val = R.val; omega
    | ⟨1, _⟩ => show win0_3.index t (1 : Fin 2) * 1 + 1 * z.val = 0; omega
  show (V (F := Ideal) m c main_v0 : S16384x1.Idx → BitVec 32) (((cfg0.win 3).blk t).view.emb (ix2 r z)) = _
  rw [hemb, V_len]
  refine shapeCast_apply (s := S16384) (t := S16384x1) _ _ _ _ ?_
  show (S16384.rowMajor (ix1 R)).val = (S16384x1.rowMajor (ix2 R (0 : Fin 1))).val
  rw [Shape.rowMajor_val_one, Shape.rowMajor_val_two]
  show R.val = R.val * 1 + 0
  omega

/-! ## The two weight tables

Each table window stages its whole array at every point (block `(0, 0)`, the block being the array), and the array is
its weight argument padded on the high side only, with no interior padding: an index is inside the argument exactly when
both coordinates are below the argument's extent, and the argument is read there at the same coordinates; everywhere
else the pad value is read, the integer zero converted, which is the real zero. -/

/-- The padding value: the integer constant zero converted is the real zero. -/
theorem padValue_eq (i : S_.Idx) : (sitofp (F := Ideal) .f32 (constantI S_ 32 0#32) : S_.Idx → Ideal .f32) i = 0 := by
  show ((((0#32 : BitVec 32).toInt : ℤ) : ℝ) : EReal) = 0
  simp

/-- The first padded table, as the region finds it: the first weight argument padded by 112 on the high side of both axes with the converted constant zero. -/
theorem V_tabMcc (m : (ℓ : Loc nD τ sig) → Buf (Elt Ideal) ℓ) (c : Dev nD) :
    (V (F := Ideal) m c main_v1 : S512x512.Idx → Ideal .f32)
      = pad S512x512 ![0, 0] ![112, 112] ![0, 0] (m ((c : Thread nD τ).loc main_arg4) : S400x400.Idx → Ideal .f32)
          (sitofp (F := Ideal) .f32 (constantI S_ 32 0#32) : S_.Idx → Ideal .f32) pads_S400x400_S512x512_01120_01120 h_S_ := by
  dsimp only [V, V0]
  simp only [hostOps0, hostOps0_1, hostOps0_2, hostOps0_3, List.flatten_cons, List.flatten_nil, List.append_nil, List.cons_append,
    List.nil_append]
  after_results
  rfl

/-- Entry `(k, q)` of the first table's block (at any point) is the first weight argument's entry `(k, q)` when both coordinates are below 400, and zero in the padding. -/
theorem blk_tabMcc (m : (ℓ : Loc nD τ sig) → Buf (Elt Ideal) ℓ) (c : Dev nD) (t : Fin cfg0.N) (k q : Fin 512) :
    iblk (F := Ideal) m c 4 t (ix2 k q)
      = if h : k.val < 400 ∧ q.val < 400 then m ((c : Thread nD τ).loc main_arg4) (ix2 (⟨k.val, h.1⟩ : Fin 400) (⟨q.val, h.2⟩ : Fin 400)) else (0 : Ideal .f32) := by
  obtain ⟨e0, e1, e2, e3, e4, e5, e6, e7, e8, e9, e10, e11⟩ := idx_facts t
  have hemb : ((cfg0.win 4).blk t).view.emb (ix2 k q) = (ix2 k q : S512x512.Idx) := by
    funext a; apply Fin.ext
    match a with
    | ⟨0, _⟩ => show win0_4.index t (0 : Fin 2) * 512 + 1 * k.val = k.val; omega
    | ⟨1, _⟩ => show win0_4.index t (1 : Fin 2) * 512 + 1 * q.val = q.val; omega
  show (V (F := Ideal) m c main_v1 : S512x512.Idx → Ideal .f32) (((cfg0.win 4).blk t).view.emb (ix2 k q)) = _
  rw [hemb, V_tabMcc]
  by_cases h : k.val < 400 ∧ q.val < 400
  · rw [dif_pos h]
    refine pad_apply_of_inside (s := S400x400) (t := S512x512) _ _ _ _ _ _ _ (ix2 k q)
      (ix2 (⟨k.val, h.1⟩ : Fin 400) (⟨q.val, h.2⟩ : Fin 400)) ?_
    intro a
    match a with
    | ⟨0, _⟩ => show k.val = 0 + k.val * (0 + 1); omega
    | ⟨1, _⟩ => show q.val = 0 + q.val * (0 + 1); omega
  · rw [dif_neg h]
    rcases Nat.lt_or_ge k.val 400 with hk | hk
    · have hq : ¬ q.val < 400 := fun hq => h ⟨hk, hq⟩
      refine (pad_apply_of_not_inside (s := S400x400) (t := S512x512) _ _ _ _ _ _ _ (ix2 k q) (1 : Fin 2) ?_).trans (padValue_eq _)
      show ¬ (0 ≤ q.val ∧ (q.val - 0) % 1 = 0 ∧ (q.val - 0) / 1 < 400)
      omega
    · refine (pad_apply_of_not_inside (s := S400x400) (t := S512x512) _ _ _ _ _ _ _ (ix2 k q) (0 : Fin 2) ?_).trans (padValue_eq _)
      show ¬ (0 ≤ k.val ∧ (k.val - 0) % 1 = 0 ∧ (k.val - 0) / 1 < 400)
      omega

/-- The second padded table, as the region finds it: the second weight argument padded by 28 on the high side of both axes with the converted constant zero. -/
theorem V_tabTrx (m : (ℓ : Loc nD τ sig) → Buf (Elt Ideal) ℓ) (c : Dev nD) :
    (V (F := Ideal) m c main_v2 : S128x128.Idx → Ideal .f32)
      = pad S128x128 ![0, 0] ![28, 28] ![0, 0] (m ((c : Thread nD τ).loc main_arg5) : S100x100.Idx → Ideal .f32)
          (sitofp (F := Ideal) .f32 (constantI S_ 32 0#32) : S_.Idx → Ideal .f32) pads_S100x100_S128x128_0280_0280 h_S_ := by
  dsimp only [V, V0]
  simp only [hostOps0, hostOps0_1, hostOps0_2, hostOps0_3, List.flatten_cons, List.flatten_nil, List.append_nil, List.cons_append,
    List.nil_append]
  after_results
  rfl

/-- Entry `(k, q)` of the second table's block (at any point) is the second weight argument's entry `(k, q)` when both coordinates are below 100, and zero in the padding. -/
theorem blk_tabTrx (m : (ℓ : Loc nD τ sig) → Buf (Elt Ideal) ℓ) (c : Dev nD) (t : Fin cfg0.N) (k q : Fin 128) :
    iblk (F := Ideal) m c 5 t (ix2 k q)
      = if h : k.val < 100 ∧ q.val < 100 then m ((c : Thread nD τ).loc main_arg5) (ix2 (⟨k.val, h.1⟩ : Fin 100) (⟨q.val, h.2⟩ : Fin 100)) else (0 : Ideal .f32) := by
  obtain ⟨e0, e1, e2, e3, e4, e5, e6, e7, e8, e9, e10, e11⟩ := idx_facts t
  have hemb : ((cfg0.win 5).blk t).view.emb (ix2 k q) = (ix2 k q : S128x128.Idx) := by
    funext a; apply Fin.ext
    match a with
    | ⟨0, _⟩ => show win0_5.index t (0 : Fin 2) * 128 + 1 * k.val = k.val; omega
    | ⟨1, _⟩ => show win0_5.index t (1 : Fin 2) * 128 + 1 * q.val = q.val; omega
  show (V (F := Ideal) m c main_v2 : S128x128.Idx → Ideal .f32) (((cfg0.win 5).blk t).view.emb (ix2 k q)) = _
  rw [hemb, V_tabTrx]
  by_cases h : k.val < 100 ∧ q.val < 100
  · rw [dif_pos h]
    refine pad_apply_of_inside (s := S100x100) (t := S128x128) _ _ _ _ _ _ _ (ix2 k q)
      (ix2 (⟨k.val, h.1⟩ : Fin 100) (⟨q.val, h.2⟩ : Fin 100)) ?_
    intro a
    match a with
    | ⟨0, _⟩ => show k.val = 0 + k.val * (0 + 1); omega
    | ⟨1, _⟩ => show q.val = 0 + q.val * (0 + 1); omega
  · rw [dif_neg h]
    rcases Nat.lt_or_ge k.val 100 with hk | hk
    · have hq : ¬ q.val < 100 := fun hq => h ⟨hk, hq⟩
      refine (pad_apply_of_not_inside (s := S100x100) (t := S128x128) _ _ _ _ _ _ _ (ix2 k q) (1 : Fin 2) ?_).trans (padValue_eq _)
      show ¬ (0 ≤ q.val ∧ (q.val - 0) % 1 = 0 ∧ (q.val - 0) / 1 < 100)
      omega
    · refine (pad_apply_of_not_inside (s := S100x100) (t := S128x128) _ _ _ _ _ _ _ (ix2 k q) (0 : Fin 2) ?_).trans (padValue_eq _)
      show ¬ (0 ≤ k.val ∧ (k.val - 0) % 1 = 0 ∧ (k.val - 0) / 1 < 100)
      omega

end Cert.KernelIdeal.BlockReads

end
-- ==== Proof.PadSum.lean ====
/-
  A sum against a zero-padded table. The kernel multiplies a row of 512 (or 128) counts with a table padded by zeros
  from 400 (or 100) rows; the padded rows contribute count · 0 = 0 on the extended reals whatever the count is, so
  the long sum is the short one.
-/
import Mathlib.Data.EReal.Basic
import Mathlib.Algebra.BigOperators.Fin

namespace Cert.TrxSpec

/-- Summing `a k · (w k if k < n, else 0)` over `k < N` is summing `a k · w k` over `k < n`. -/
theorem sum_mul_padded {n N : ℕ} (hnN : n ≤ N) (a : Fin N → EReal) (w : Fin n → EReal) :
    ∑ k : Fin N, a k * (if h : k.val < n then w ⟨k.val, h⟩ else 0) = ∑ v : Fin n, a (Fin.castLE hnN v) * w v := by
  classical
  rw [← Finset.sum_subset (Finset.subset_univ (Finset.univ.filter fun k : Fin N => k.val < n))]
  · refine Finset.sum_bij' (fun k hk => ⟨k.val, (Finset.mem_filter.mp hk).2⟩) (fun v _ => Fin.castLE hnN v) ?_ ?_ ?_ ?_ ?_
    · intro k hk; exact Finset.mem_univ _
    · intro v _; exact Finset.mem_filter.mpr ⟨Finset.mem_univ _, v.isLt⟩
    · intro k hk; exact Fin.ext rfl
    · intro v _; exact Fin.ext rfl
    · intro k hk
      have hk' : k.val < n := (Finset.mem_filter.mp hk).2
      rw [dif_pos hk']
      exact congrArg (· * _) (congrArg a (Fin.ext rfl))
  · intro k _ hk
    have hk' : ¬ k.val < n := fun h => hk (Finset.mem_filter.mpr ⟨Finset.mem_univ _, h⟩)
    rw [dif_neg hk', mul_zero]

end Cert.TrxSpec
-- ==== Proof.KIBridge.lean ====
/-
  The region's whole result, read at a row and a column, is the specification: on columns 0..399 the mean embedding
  of the row's `mcc_code`s, on columns 512..611 that of its `trx_type`s, on column 640 its ragged mean.
  A row R lies in block R / 128 at local row R % 128; the block's three running sums are the row's code counts and
  masked sum (the sixteen chunks of 64 positions are all 1024 positions); the padded table rows 400..511 (100..127)
  are zero and drop out of the product's sum.
-/
import proofs.«405439_j73753178407534_2_alg».proof.Proof.KIArray
import proofs.«405439_j73753178407534_2_alg».proof.Proof.KILoop
import proofs.«405439_j73753178407534_2_alg».proof.Proof.KIStretch
import proofs.«405439_j73753178407534_2_alg».proof.Proof.KIBlocks
import proofs.«405439_j73753178407534_2_alg».proof.Proof.Spec
import proofs.«405439_j73753178407534_2_alg».proof.Proof.PadSum

set_option maxRecDepth 16384

noncomputable section

namespace Cert.KernelIdeal.Bridge

open Cert.KernelIdeal Cert.KernelIdeal.Gen Cert.KernelIdeal.Around Cert.KernelIdeal.Body Cert.KernelIdeal.Run
open Cert.KernelIdeal.ArrayValue Cert.KernelIdeal.LoopValue Cert.KernelIdeal.StretchValue Cert.KernelIdeal.BlockReads
open Cert.TrxSpec
open Idealize.ShloMosaic Idealize.ShloMosaic.TcCoe Idealize.ShloMosaic.ValueIdx Idealize.SL.Sem

variable (m : (ℓ : Loc nD τ sig) → Buf (Elt Ideal) ℓ) (c : Dev nD)

/-- Row `R` is local row `R % 128` of block `R / 128`. -/
theorem row_split (R : Fin 16384) : R.val = 128 * (blockOfRow R).val + (rowInBlock R).val := by
  show R.val = 128 * (R.val / 128) + R.val % 128
  omega

/-- The three running sums of grid point `t`, over the point's blocks. -/
abbrev sumsAt (t : Fin cfg0.N) : FVec Ideal S128x512 .f32 × FVec Ideal S128x128 .f32 × FVec Ideal S128x1 .f32 :=
  sums (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk (F := Ideal) m c 0 t) (iblk (F := Ideal) m c 1 t) (iblk (F := Ideal) m c 2 t) (iblk (F := Ideal) m c 3 t)

theorem blockAt_mcc (t : Fin cfg0.N) (r : Fin 128) (j : Fin 768) (hj : j.val < 512) :
    blockAt (F := Ideal) m c t (ix2 r j)
      = ∑ k : Fin 512, ((sumsAt m c t).1 (ix2 r k) * posWeight) * iblk (F := Ideal) m c 4 t (ix2 k (⟨j.val, hj⟩ : Fin 512)) := by
  unfold blockAt
  exact outBlk_mcc c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk (F := Ideal) m c 0 t) (iblk (F := Ideal) m c 1 t) (iblk (F := Ideal) m c 2 t) (iblk (F := Ideal) m c 3 t) (iblk (F := Ideal) m c 4 t) (iblk (F := Ideal) m c 5 t) r j hj

theorem blockAt_trx (t : Fin cfg0.N) (r : Fin 128) (j : Fin 768) (hlo : 512 ≤ j.val) (hhi : j.val < 640) :
    blockAt (F := Ideal) m c t (ix2 r j)
      = ∑ k : Fin 128, ((sumsAt m c t).2.1 (ix2 r k) * posWeight) * iblk (F := Ideal) m c 5 t (ix2 k (⟨j.val - 512, by omega⟩ : Fin 128)) := by
  unfold blockAt
  exact outBlk_trx c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk (F := Ideal) m c 0 t) (iblk (F := Ideal) m c 1 t) (iblk (F := Ideal) m c 2 t) (iblk (F := Ideal) m c 3 t) (iblk (F := Ideal) m c 4 t) (iblk (F := Ideal) m c 5 t) r j hlo hhi

theorem blockAt_mean (t : Fin cfg0.N) (r : Fin 128) (j : Fin 768) (hj : j.val = 640) :
    blockAt (F := Ideal) m c t (ix2 r j)
      = Ideal.div ((sumsAt m c t).2.2 (ix2 r 0)) ((((iblk (F := Ideal) m c 3 t (ix2 r 0)).toInt : ℝ)) : EReal) := by
  unfold blockAt
  exact outBlk_mean c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk (F := Ideal) m c 0 t) (iblk (F := Ideal) m c 1 t) (iblk (F := Ideal) m c 2 t) (iblk (F := Ideal) m c 3 t) (iblk (F := Ideal) m c 4 t) (iblk (F := Ideal) m c 5 t) r j hj

/-- The first running sum at local row `r` of block `t` and code `k` is the code's count in the row. -/
theorem count_mcc (t : Fin cfg0.N) (r : Fin 128) (R : Fin 16384) (hR : R.val = 128 * t.val + r.val) (k : Fin 512) :
    (sumsAt m c t).1 (ix2 r k) = codeCount (m ((c : Thread nD τ).loc main_arg0)) R k.val :=
  (sums_mcc c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk (F := Ideal) m c 0 t) (iblk (F := Ideal) m c 1 t) (iblk (F := Ideal) m c 2 t) (iblk (F := Ideal) m c 3 t) r k).trans
    (Finset.sum_congr rfl fun p _ => congrArg (fun w => hit w k.val) (blk_mcc m c t r p R hR))

theorem count_trx (t : Fin cfg0.N) (r : Fin 128) (R : Fin 16384) (hR : R.val = 128 * t.val + r.val) (k : Fin 128) :
    (sumsAt m c t).2.1 (ix2 r k) = codeCount (m ((c : Thread nD τ).loc main_arg1)) R k.val :=
  (sums_trx c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk (F := Ideal) m c 0 t) (iblk (F := Ideal) m c 1 t) (iblk (F := Ideal) m c 2 t) (iblk (F := Ideal) m c 3 t) r k).trans
    (Finset.sum_congr rfl fun p _ => congrArg (fun w => hit w k.val) (blk_trx m c t r p R hR))

theorem masked_sum (t : Fin cfg0.N) (r : Fin 128) (R : Fin 16384) (hR : R.val = 128 * t.val + r.val) :
    (sumsAt m c t).2.2 (ix2 r 0)
      = ∑ p : Fin 1024, logScaled ((m ((c : Thread nD τ).loc main_arg2)) (ix2 R p)) * below p.val ((m ((c : Thread nD τ).loc main_arg3)) (ix1 R)) :=
  (sums_var c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk (F := Ideal) m c 0 t) (iblk (F := Ideal) m c 1 t) (iblk (F := Ideal) m c 2 t) (iblk (F := Ideal) m c 3 t) r 0).trans
    (Finset.sum_congr rfl fun p _ => by rw [blk_amt m c t r p R hR, blk_len m c t r 0 R hR])

/-- Columns 0..399 of the whole result are the mean embedding of the row's `mcc_code`s. -/
theorem whole_mcc (R : Fin 16384) (j : Fin 768) (hj : j.val < 400) :
    wholeOut m c (ix2 R j) = bagMcc (m ((c : Thread nD τ).loc main_arg0)) (m ((c : Thread nD τ).loc main_arg4)) (ix2 R (⟨j.val, hj⟩ : Fin 400)) := by
  rw [wholeOut_apply, blockAt_mcc m c (blockOfRow R) (rowInBlock R) j (by omega)]
  have hterm : ∀ k : Fin 512,
      ((sumsAt m c (blockOfRow R)).1 (ix2 (rowInBlock R) k) * posWeight) * iblk (F := Ideal) m c 4 (blockOfRow R) (ix2 k (⟨j.val, by omega⟩ : Fin 512))
        = (codeCount (m ((c : Thread nD τ).loc main_arg0)) R k.val * posWeight) * (if h : k.val < 400 then ((m ((c : Thread nD τ).loc main_arg4)) (ix2 (⟨k.val, h⟩ : Fin 400) (⟨j.val, hj⟩ : Fin 400)) : EReal) else (0 : EReal)) := by
    intro k
    rw [count_mcc m c (blockOfRow R) (rowInBlock R) R (row_split R) k, blk_tabMcc m c (blockOfRow R) k ⟨j.val, by omega⟩]
    by_cases hk : k.val < 400
    · rw [dif_pos ⟨hk, hj⟩, dif_pos hk]
    · rw [dif_neg (fun h => hk h.1), dif_neg hk]
  rw [Finset.sum_congr rfl fun k _ => hterm k]
  exact sum_mul_padded (by decide : 400 ≤ 512) (fun k : Fin 512 => codeCount (m ((c : Thread nD τ).loc main_arg0)) R k.val * posWeight)
    (fun v : Fin 400 => (m ((c : Thread nD τ).loc main_arg4)) (ix2 v (⟨j.val, hj⟩ : Fin 400)))

/-- Columns 512..611 are the mean embedding of the row's `trx_type`s. -/
theorem whole_trx (R : Fin 16384) (j : Fin 768) (hlo : 512 ≤ j.val) (hhi : j.val < 612) :
    wholeOut m c (ix2 R j) = bagTrx (m ((c : Thread nD τ).loc main_arg1)) (m ((c : Thread nD τ).loc main_arg5)) (ix2 R (⟨j.val - 512, by omega⟩ : Fin 100)) := by
  rw [wholeOut_apply, blockAt_trx m c (blockOfRow R) (rowInBlock R) j hlo (by omega)]
  have hterm : ∀ k : Fin 128,
      ((sumsAt m c (blockOfRow R)).2.1 (ix2 (rowInBlock R) k) * posWeight) * iblk (F := Ideal) m c 5 (blockOfRow R) (ix2 k (⟨j.val - 512, by omega⟩ : Fin 128))
        = (codeCount (m ((c : Thread nD τ).loc main_arg1)) R k.val * posWeight) * (if h : k.val < 100 then ((m ((c : Thread nD τ).loc main_arg5)) (ix2 (⟨k.val, h⟩ : Fin 100) (⟨j.val - 512, by omega⟩ : Fin 100)) : EReal) else (0 : EReal)) := by
    intro k
    rw [count_trx m c (blockOfRow R) (rowInBlock R) R (row_split R) k, blk_tabTrx m c (blockOfRow R) k ⟨j.val - 512, by omega⟩]
    by_cases hk : k.val < 100
    · rw [dif_pos ⟨hk, (by show j.val - 512 < 100; omega)⟩, dif_pos hk]
    · rw [dif_neg (fun h => hk h.1), dif_neg hk]
  rw [Finset.sum_congr rfl fun k _ => hterm k]
  exact sum_mul_padded (by decide : 100 ≤ 128) (fun k : Fin 128 => codeCount (m ((c : Thread nD τ).loc main_arg1)) R k.val * posWeight)
    (fun v : Fin 100 => (m ((c : Thread nD τ).loc main_arg5)) (ix2 v (⟨j.val - 512, by omega⟩ : Fin 100)))

/-- Column 640 is the row's ragged mean. -/
theorem whole_mean (R : Fin 16384) (j : Fin 768) (hj : j.val = 640) (z : Fin 1) :
    wholeOut m c (ix2 R j) = raggedMean (m ((c : Thread nD τ).loc main_arg2)) (m ((c : Thread nD τ).loc main_arg3)) (ix2 R z) := by
  rw [wholeOut_apply, blockAt_mean m c (blockOfRow R) (rowInBlock R) j hj,
    masked_sum m c (blockOfRow R) (rowInBlock R) R (row_split R), blk_len m c (blockOfRow R) (rowInBlock R) 0 R (row_split R)]
  rfl

/-! ## The three slices -/

theorem slice_mcc :
    extractStridedSlice S16384x400 ![0, 0] (wholeOut m c) slices_S16384x768_S16384x400_0_0 = bagMcc (m ((c : Thread nD τ).loc main_arg0)) (m ((c : Thread nD τ).loc main_arg4)) := by
  funext i
  obtain ⟨R, q, rfl⟩ : ∃ (R : Fin 16384) (q : Fin 400), i = ix2 R q := ⟨i 0, i 1, eq_ix2 i⟩
  have hq : q.val < 768 := by omega
  show wholeOut m c _ = _
  refine (congrArg (wholeOut m c) (funext fun a => Fin.ext ?_)).trans (whole_mcc m c R ⟨q.val, hq⟩ q.isLt)
  match a with
  | ⟨0, _⟩ => exact Nat.zero_add _
  | ⟨1, _⟩ => exact Nat.zero_add _

theorem slice_trx :
    extractStridedSlice S16384x100 ![0, 512] (wholeOut m c) slices_S16384x768_S16384x100_0_512 = bagTrx (m ((c : Thread nD τ).loc main_arg1)) (m ((c : Thread nD τ).loc main_arg5)) := by
  funext i
  obtain ⟨R, q, rfl⟩ : ∃ (R : Fin 16384) (q : Fin 100), i = ix2 R q := ⟨i 0, i 1, eq_ix2 i⟩
  have hq : 512 + q.val < 768 := by omega
  show wholeOut m c _ = _
  refine ((congrArg (wholeOut m c) (funext fun a => Fin.ext ?_)).trans
    (whole_trx m c R ⟨512 + q.val, hq⟩ (Nat.le_add_right _ _) (by show 512 + q.val < 612; omega))).trans
    (congrArg (bagTrx (m ((c : Thread nD τ).loc main_arg1)) (m ((c : Thread nD τ).loc main_arg5))) (congrArg (ix2 R) (Fin.ext (by show 512 + q.val - 512 = q.val; omega))))
  match a with
  | ⟨0, _⟩ => exact Nat.zero_add _
  | ⟨1, _⟩ => rfl

theorem slice_mean :
    extractStridedSlice S16384x1 ![0, 640] (wholeOut m c) slices_S16384x768_S16384x1_0_640 = raggedMean (m ((c : Thread nD τ).loc main_arg2)) (m ((c : Thread nD τ).loc main_arg3)) := by
  funext i
  obtain ⟨R, z, rfl⟩ : ∃ (R : Fin 16384) (z : Fin 1), i = ix2 R z := ⟨i 0, i 1, eq_ix2 i⟩
  have hz : 640 + z.val < 768 := by omega
  show wholeOut m c _ = _
  refine (congrArg (wholeOut m c) (funext fun a => Fin.ext ?_)).trans
    (whole_mean m c R ⟨640 + z.val, hz⟩ (by show 640 + z.val = 640; omega) z)
  match a with
  | ⟨0, _⟩ => exact Nat.zero_add _
  | ⟨1, _⟩ => rfl

end Cert.KernelIdeal.Bridge

end
-- ==== Proof.RefBag.lean ====
/-
  The reference program's two bag-of-codes stretches, read as plain mathematics.

  The reference scatters the constant 1/1024 into a zero array at (row, token) for every position of every row and then
  multiplies the resulting counts array by the embedding table. Under the hypothesis that every token is a non-negative
  word, the scatter's element (b, v) is the number of positions of row b carrying the code v, times 1/1024, and the
  matrix product is the specification's mean embedding.
-/
import proofs.«405439_j73753178407534_2_alg».proof.Proof.Gen.ReferenceIdeal.Read
import proofs.«405439_j73753178407534_2_alg».proof.Proof.Spec
import Idealize.ShloMosaic.Lib.ValueIdx
import Idealize.ShloMosaic.Lib.Pipeline.Value
import Idealize.ShloMosaic.PureOps.Ideal.Laws

noncomputable section

namespace Cert.ReferenceIdeal.RefBag

open Cert.ReferenceIdeal Cert.ReferenceIdeal.Gen Cert.ReferenceIdeal.Read Cert.TrxSpec
open Idealize.ShloMosaic Idealize.ShloMosaic.ValueIdx

/-! ## The scatter's landing index -/

/-- An update index lands on the operand index `i` exactly when, on every operand axis, the signed start plus the
    window coordinate is `i`'s coordinate: inside the operand the landing index is that sum, and a sum equal to a
    coordinate of `i` is inside. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro e a
      have e' := congrFun (Option.some.inj e) a
      have hv := congrArg Fin.val e'
      simp only at hv
      have := h a
      omega
    · intro e
      congr 1
      funext a
      apply Fin.ext
      simp only
      have := e a
      omega
  · constructor
    · intro e
      exact absurd e (by simp)
    · intro e
      exfalso
      apply h
      intro a
      have := e a
      have := (i a).isLt
      omega

/-- The dimension numbers of `zeros.at[rows, tokens].add(u)` into a `[16384, V]` array: no window axis, both operand
    axes inserted, index vectors `(row, token)` along the last axis of the `[16384, 1024, 2]` indices. -/
abbrev bagDims (V : Nat)
    (wf : ScatterDims.WF ⟨2, ![16384, V]⟩ ⟨3, ![16384, 1024, 2]⟩ ⟨2, ![16384, 1024]⟩ [] [0, 1] [0, 1] 2) :
    ScatterDims ⟨2, ![16384, V]⟩ ⟨3, ![16384, 1024, 2]⟩ ⟨2, ![16384, 1024]⟩ where
  updateWindowDims := []
  insertedWindowDims := [0, 1]
  scatterDimsToOperandDims := [0, 1]
  indexVectorDim := 2
  wf := wf

section Dims
variable {V : Nat}
  (wf : ScatterDims.WF ⟨2, ![16384, V]⟩ ⟨3, ![16384, 1024, 2]⟩ ⟨2, ![16384, 1024]⟩ [] [0, 1] [0, 1] 2)

/-- No operand axis is a window axis: every window coordinate is 0. -/
theorem bag_window (j : (⟨2, ![16384, 1024]⟩ : Shape).Idx) (a : Fin 2) : (bagDims V wf).window j a = 0 := by
  unfold ScatterDims.window
  rw [dif_neg]
  show a ∉ ([] : List (Fin 2))
  exact List.not_mem_nil

/-- The start on the row axis is component 0 of the update's index vector. -/
theorem bag_start0 {w : Nat} (b : Fin 16384) (t : Fin 1024) (idx : IVec ⟨3, ![16384, 1024, 2]⟩ w) :
    (bagDims V wf).start (ix2 b t) idx 0 = (idx (ix3 b t 0)).toInt := by
  unfold ScatterDims.start
  rw [dif_pos (show (0 : Fin 2) ∈ (bagDims V wf).scatterDimsToOperandDims from (by decide : (0 : Fin 2) ∈ ([0, 1] : List (Fin 2))))]
  congr 2
  funext c
  refine Fin.ext ?_
  match c with
  | ⟨0, _⟩ => rfl
  | ⟨1, _⟩ => rfl
  | ⟨2, _⟩ => rfl

/-- The start on the column axis is component 1 of the update's index vector. -/
theorem bag_start1 {w : Nat} (b : Fin 16384) (t : Fin 1024) (idx : IVec ⟨3, ![16384, 1024, 2]⟩ w) :
    (bagDims V wf).start (ix2 b t) idx 1 = (idx (ix3 b t 1)).toInt := by
  unfold ScatterDims.start
  rw [dif_pos (show (1 : Fin 2) ∈ (bagDims V wf).scatterDimsToOperandDims from (by decide : (1 : Fin 2) ∈ ([0, 1] : List (Fin 2))))]
  congr 2
  funext c
  refine Fin.ext ?_
  match c with
  | ⟨0, _⟩ => rfl
  | ⟨1, _⟩ => rfl
  | ⟨2, _⟩ => rfl

/-- Update `(b', t)` lands on `(b, v)` exactly when its index vector, read signed, is `(b, v)`. -/
theorem bag_lands {w : Nat} (b' : Fin 16384) (t : Fin 1024) (idx : IVec ⟨3, ![16384, 1024, 2]⟩ w)
    (b : Fin 16384) (v : Fin V) :
    (bagDims V wf).resultIdx? (ix2 b' t) idx = some (ix2 b v) ↔
      (idx (ix3 b' t 0)).toInt = (b.val : Int) ∧ (idx (ix3 b' t 1)).toInt = (v.val : Int) := by
  rw [resultIdx?_eq_some_iff]
  constructor
  · intro h
    have h0 : (bagDims V wf).start (ix2 b' t) idx 0 + ((bagDims V wf).window (ix2 b' t) 0 : Int) = (b.val : Int) := h 0
    have h1 : (bagDims V wf).start (ix2 b' t) idx 1 + ((bagDims V wf).window (ix2 b' t) 1 : Int) = (v.val : Int) := h 1
    rw [bag_window, bag_start0] at h0
    rw [bag_window, bag_start1] at h1
    exact ⟨by simpa using h0, by simpa using h1⟩
  · rintro ⟨h0, h1⟩ a
    match a with
    | ⟨0, _⟩ =>
      show (bagDims V wf).start (ix2 b' t) idx 0 + ((bagDims V wf).window (ix2 b' t) 0 : Int) = _
      rw [bag_window, bag_start0, h0]; simp
    | ⟨1, _⟩ =>
      show (bagDims V wf).start (ix2 b' t) idx 1 + ((bagDims V wf).window (ix2 b' t) 1 : Int) = _
      rw [bag_window, bag_start1, h1]; simp

end Dims

/-! ## Words -/

/-- A natural number below 2³¹, as a 32-bit word read signed, is itself. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- A non-negative word is not below zero in the signed order. -/
theorem slt_zero_of_nonneg (x : BitVec 32) (h : 0 ≤ x.toInt) : IntOp.cmpi .slt x 0#32 = 0#1 := by
  unfold IntOp.cmpi
  have e : x.slt 0#32 = false := by simpa [BitVec.slt] using h
  simp [e]

/-! ## The index vectors -/

/-- The wrapped row index at row `b` is the word `b`: the row number is not negative, so the wrap-around leaves it. -/
theorem rowWord (i : S16384x1.Idx) : val_main_v7 (F := Ideal) i = BitVec.ofNat 32 (i 0).val := by
  rw [val_main_v7_apply, val_main_v4_apply, val_main_v3_apply, val_main_c_apply, val_main_v1_apply, val_main_v0_apply]
  have e : ((idx_main_v1 i) 0).val = (i 0).val := rfl
  have hlt : (i 0).val < 16384 := idx2_lt0 i
  rw [e, slt_zero_of_nonneg _ (by rw [toInt_ofNat_small _ (by omega)]; omega), select_zero]

/-- The wrapped token is the token when the token is not negative. -/
theorem tokWord (x0 : (⟨S16384x1024, .i32⟩ : BufTy).Contents (Elt Ideal)) (h0 : ∀ i, 0 ≤ (x0 i).toInt)
    (i : S16384x1024.Idx) : val_main_v12 (F := Ideal) x0 i = x0 i := by
  rw [val_main_v12_apply, val_main_v9_apply, val_main_v8_apply, val_main_c_1_apply, slt_zero_of_nonneg _ (h0 i),
    select_zero]

/-- Component 0 of the index vector of update `(b, t)` is the row word `b`. -/
theorem idxVec0 (x0 : (⟨S16384x1024, .i32⟩ : BufTy).Contents (Elt Ideal)) (b : Fin 16384) (t : Fin 1024) :
    val_main_v16 (F := Ideal) x0 (ix3 b t (0 : Fin 2)) = BitVec.ofNat 32 b.val := by
  unfold val_main_v16
  have e := concatenate_pair_apply_left (t := S16384x1024x2) (s₁ := S16384x1024x1) (s₂ := S16384x1024x1) (2 : Fin 3)
    (val_main_v14 (F := Ideal)) (val_main_v15 (F := Ideal) x0) concatenates_S16384x1024x1_S16384x1024x1_S16384x1024x2_d2
    (ix3 b t (0 : Fin 2)) rfl (ix3 b t (0 : Fin 1)) (fun c => by
      match c with
      | ⟨0, _⟩ => rfl
      | ⟨1, _⟩ => rfl
      | ⟨2, _⟩ => rfl)
  rw [e, val_main_v14_apply, val_main_v13_apply, rowWord]

/-- Component 1 of the index vector of update `(b, t)` is the token at `(b, t)`, when no token is negative. -/
theorem idxVec1 (x0 : (⟨S16384x1024, .i32⟩ : BufTy).Contents (Elt Ideal)) (h0 : ∀ i, 0 ≤ (x0 i).toInt)
    (b : Fin 16384) (t : Fin 1024) :
    val_main_v16 (F := Ideal) x0 (ix3 b t (1 : Fin 2)) = x0 (ix2 b t) := by
  unfold val_main_v16
  have e' := concatenate_pair_apply_right (t := S16384x1024x2) (s₁ := S16384x1024x1) (s₂ := S16384x1024x1) (2 : Fin 3)
    (val_main_v14 (F := Ideal)) (val_main_v15 (F := Ideal) x0) concatenates_S16384x1024x1_S16384x1024x1_S16384x1024x2_d2
    (ix3 b t (1 : Fin 2)) rfl rfl (ix3 b t (0 : Fin 1)) (fun c hc => by
      match c, hc with
      | ⟨0, _⟩, _ => rfl
      | ⟨1, _⟩, _ => rfl
      | ⟨2, _⟩, hc => exact absurd rfl hc) rfl
  rw [e']
  have e : idx_main_v15 (ix3 b t (0 : Fin 1)) = ix2 b t := funext fun a => by
    match a with
    | ⟨0, _⟩ => rfl
    | ⟨1, _⟩ => rfl
  rw [val_main_v15_apply, tokWord x0 h0, e]

/-! ## The scatter at an index -/

/-- The accumulating scatter with these dimension numbers, read at `(b, v)`, when the index vector of update `(b', t)`
    is (the word `b'`, the word `tok (b', t)`): the operand's element plus the updates of the positions `t` of row `b`
    whose token is the word `v`. An update lands on `(b, v)` exactly when its row word read signed is `b` — that is,
    `b' = b` — and its token read signed is `v` — that is, the token is the word `v`, as `v` is below 2³¹. -/
theorem bag_scatter_read {V : Nat}
    (wf : ScatterDims.WF ⟨2, ![16384, V]⟩ ⟨3, ![16384, 1024, 2]⟩ ⟨2, ![16384, 1024]⟩ [] [0, 1] [0, 1] 2)
    (x : (⟨2, ![16384, V]⟩ : Shape).Idx → EReal) (idx : IVec ⟨3, ![16384, 1024, 2]⟩ 32)
    (upd : (⟨2, ![16384, 1024]⟩ : Shape).Idx → EReal) (tok : (⟨2, ![16384, 1024]⟩ : Shape).Idx → BitVec 32)
    (hrow : ∀ b t, idx (ix3 b t (0 : Fin 2)) = BitVec.ofNat 32 b.val)
    (hcol : ∀ b t, idx (ix3 b t (1 : Fin 2)) = tok (ix2 b t))
    (b : Fin 16384) (v : Fin V) (hv : v.val < 2147483648) :
    Ideal.hostScatterAdd (bagDims V wf) x idx upd (ix2 b v) =
      x (ix2 b v) + ∑ t : Fin 1024, if tok (ix2 b t) = BitVec.ofNat 32 v.val then upd (ix2 b t) else 0 := by
  unfold Ideal.hostScatterAdd
  refine congrArg (fun z => x (ix2 b v) + z) ?_
  rw [Finset.sum_filter, sum_idx2]
  have hvv : (BitVec.ofNat 32 v.val).toInt = (v.val : Int) := toInt_ofNat_small _ hv
  have key : ∀ (b' : Fin 16384) (t : Fin 1024), (bagDims V wf).resultIdx? (ix2 b' t) idx = some (ix2 b v) ↔
      (b' = b ∧ tok (ix2 b' t) = BitVec.ofNat 32 v.val) := by
    intro b' t
    rw [bag_lands, hrow, hcol, toInt_ofNat_small _ (by have := b'.isLt; omega)]
    constructor
    · rintro ⟨h1, h2⟩
      exact ⟨Fin.ext (by exact_mod_cast h1), BitVec.eq_of_toInt_eq (by rw [h2, hvv])⟩
    · rintro ⟨rfl, h2⟩
      exact ⟨rfl, by rw [h2, hvv]⟩
  rw [Finset.sum_eq_single b]
  · exact Finset.sum_congr rfl fun t _ => if_congr ((key b t).trans (and_iff_right rfl)) rfl rfl
  · intro b' _ hne
    exact Finset.sum_eq_zero fun t _ => if_neg (fun h => hne ((key b' t).mp h).1)
  · intro h
    exact absurd (Finset.mem_univ b) h

/-- The zero word of `f32` denotes 0. -/
theorem ofBits_zero : Ideal.ofBits .f32 0x00000000#32 = 0 := by simp [Ideal.ofBits, Ideal.ieee]

/-- The `mcc_code` counts array at `(b, v)`: 1/1024 for each position of row `b` whose code is `v`. -/
theorem counts_mcc (x0 : (⟨S16384x1024, .i32⟩ : BufTy).Contents (Elt Ideal)) (h0 : ∀ i, 0 ≤ (x0 i).toInt)
    (b : Fin 16384) (v : Fin 400) :
    val_main_v18 (F := Ideal) x0 (ix2 b v) =
      ∑ t : Fin 1024, if x0 (ix2 b t) = BitVec.ofNat 32 v.val then posWeight else 0 := by
  have h := bag_scatter_read (V := 400) scatter_S16384x400_S16384x1024x2_S16384x1024_n_01_01_2_wf
    (val_main_v2 (F := Ideal)) (val_main_v16 (F := Ideal) x0) (val_main_v17 (F := Ideal)) x0
    (idxVec0 x0) (idxVec1 x0 h0) b v (by have := v.isLt; omega)
  rw [val_main_v2_apply, val_main_cst_apply] at h
  simp only [val_main_v17_apply, val_main_cst_3_apply] at h
  rw [show (FloatOps.ofBits (F := Ideal) .f32 0x00000000#32) = 0 from ofBits_zero, zero_add] at h
  exact h

/-! ## The same for `trx_type` -/

/-- The wrapped row index at row `b` is the word `b`. -/
theorem rowWord' (i : S16384x1.Idx) : val_main_v27 (F := Ideal) i = BitVec.ofNat 32 (i 0).val := by
  rw [val_main_v27_apply, val_main_v24_apply, val_main_v23_apply, val_main_c_5_apply, val_main_v21_apply,
    val_main_v20_apply]
  have e : ((idx_main_v21 i) 0).val = (i 0).val := rfl
  have hlt : (i 0).val < 16384 := idx2_lt0 i
  rw [e, slt_zero_of_nonneg _ (by rw [toInt_ofNat_small _ (by omega)]; omega), select_zero]

/-- The wrapped token is the token when the token is not negative. -/
theorem tokWord' (x1 : (⟨S16384x1024, .i32⟩ : BufTy).Contents (Elt Ideal)) (h1 : ∀ i, 0 ≤ (x1 i).toInt)
    (i : S16384x1024.Idx) : val_main_v32 (F := Ideal) x1 i = x1 i := by
  rw [val_main_v32_apply, val_main_v29_apply, val_main_v28_apply, val_main_c_7_apply, slt_zero_of_nonneg _ (h1 i),
    select_zero]

/-- Component 0 of the index vector of update `(b, t)` is the row word `b`. -/
theorem idxVec0' (x1 : (⟨S16384x1024, .i32⟩ : BufTy).Contents (Elt Ideal)) (b : Fin 16384) (t : Fin 1024) :
    val_main_v36 (F := Ideal) x1 (ix3 b t (0 : Fin 2)) = BitVec.ofNat 32 b.val := by
  unfold val_main_v36
  have e := concatenate_pair_apply_left (t := S16384x1024x2) (s₁ := S16384x1024x1) (s₂ := S16384x1024x1) (2 : Fin 3)
    (val_main_v34 (F := Ideal)) (val_main_v35 (F := Ideal) x1) concatenates_S16384x1024x1_S16384x1024x1_S16384x1024x2_d2
    (ix3 b t (0 : Fin 2)) rfl (ix3 b t (0 : Fin 1)) (fun c => by
      match c with
      | ⟨0, _⟩ => rfl
      | ⟨1, _⟩ => rfl
      | ⟨2, _⟩ => rfl)
  rw [e, val_main_v34_apply, val_main_v33_apply, rowWord']

/-- Component 1 of the index vector of update `(b, t)` is the token at `(b, t)`, when no token is negative. -/
theorem idxVec1' (x1 : (⟨S16384x1024, .i32⟩ : BufTy).Contents (Elt Ideal)) (h1 : ∀ i, 0 ≤ (x1 i).toInt)
    (b : Fin 16384) (t : Fin 1024) :
    val_main_v36 (F := Ideal) x1 (ix3 b t (1 : Fin 2)) = x1 (ix2 b t) := by
  unfold val_main_v36
  have e' := concatenate_pair_apply_right (t := S16384x1024x2) (s₁ := S16384x1024x1) (s₂ := S16384x1024x1) (2 : Fin 3)
    (val_main_v34 (F := Ideal)) (val_main_v35 (F := Ideal) x1) concatenates_S16384x1024x1_S16384x1024x1_S16384x1024x2_d2
    (ix3 b t (1 : Fin 2)) rfl rfl (ix3 b t (0 : Fin 1)) (fun c hc => by
      match c, hc with
      | ⟨0, _⟩, _ => rfl
      | ⟨1, _⟩, _ => rfl
      | ⟨2, _⟩, hc => exact absurd rfl hc) rfl
  rw [e']
  have e : idx_main_v35 (ix3 b t (0 : Fin 1)) = ix2 b t := funext fun a => by
    match a with
    | ⟨0, _⟩ => rfl
    | ⟨1, _⟩ => rfl
  rw [val_main_v35_apply, tokWord' x1 h1, e]

/-- The `trx_type` counts array at `(b, v)`: 1/1024 for each position of row `b` whose code is `v`. -/
theorem counts_trx (x1 : (⟨S16384x1024, .i32⟩ : BufTy).Contents (Elt Ideal)) (h1 : ∀ i, 0 ≤ (x1 i).toInt)
    (b : Fin 16384) (v : Fin 100) :
    val_main_v38 (F := Ideal) x1 (ix2 b v) =
      ∑ t : Fin 1024, if x1 (ix2 b t) = BitVec.ofNat 32 v.val then posWeight else 0 := by
  have h := bag_scatter_read (V := 100) scatter_S16384x100_S16384x1024x2_S16384x1024_n_01_01_2_wf
    (val_main_v22 (F := Ideal)) (val_main_v36 (F := Ideal) x1) (val_main_v37 (F := Ideal)) x1
    (idxVec0' x1) (idxVec1' x1 h1) b v (by have := v.isLt; omega)
  rw [val_main_v22_apply, val_main_cst_4_apply] at h
  simp only [val_main_v37_apply, val_main_cst_9_apply] at h
  rw [show (FloatOps.ofBits (F := Ideal) .f32 0x00000000#32) = 0 from ofBits_zero, zero_add] at h
  exact h

/-! ## Counts as the specification writes them -/

/-- Multiplication by a constant distributes over a finite sum of non-negative terms. -/
theorem sum_mul_of_nonneg {ι : Type} (s : Finset ι) (f : ι → EReal) (c : EReal) (hf : ∀ i ∈ s, 0 ≤ f i) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih (fun i hi => hf i (Finset.mem_insert_of_mem hi))]

/-- The weight 1/1024 once for each position of row `b` carrying the code `v` is the number of those positions times the
    weight: each position contributes 1 · weight or 0 · weight, and the 0/1 factors are not negative. -/
theorem counts_eq (tok : SRowsPos.Idx → BitVec 32) (b : Fin 16384) (v : ℕ) :
    (∑ t : Fin 1024, if tok (ix2 b t) = BitVec.ofNat 32 v then posWeight else 0) = codeCount tok b v * posWeight := by
  unfold codeCount
  rw [sum_mul_of_nonneg _ _ _ (fun t _ => by unfold hit; split_ifs <;> simp)]
  refine Finset.sum_congr rfl fun t _ => ?_
  unfold hit
  split_ifs <;> simp

/-! ## The two stretches -/

/-- The reference's `mcc_code` stretch is the specification's mean embedding, when no code is negative. -/
theorem bag_mcc (x0 : (⟨S16384x1024, .i32⟩ : BufTy).Contents (Elt Ideal)) (x4 : (⟨S400x400, .f32⟩ : BufTy).Contents (Elt Ideal))
    (h0 : ∀ i, 0 ≤ (x0 i).toInt) : val_main_v19 (F := Ideal) x0 x4 = Cert.TrxSpec.bagMcc x0 x4 := by
  funext i
  obtain ⟨p, q, rfl⟩ : ∃ (p : Fin 16384) (q : Fin 400), i = ix2 p q := ⟨i 0, i 1, eq_ix2 i⟩
  rw [val_main_v19_apply]
  unfold bagMcc
  refine Finset.sum_congr rfl fun k _ => ?_
  have el : lidx_main_v19 (ix2 p q) k = ix2 p k := funext fun a => by
    match a with
    | ⟨0, _⟩ => rfl
    | ⟨1, _⟩ => rfl
  have er : ridx_main_v19 (ix2 p q) k = ix2 k q := funext fun a => by
    match a with
    | ⟨0, _⟩ => rfl
    | ⟨1, _⟩ => rfl
  rw [el, er, counts_mcc x0 h0, counts_eq x0 p k.val]

/-- The reference's `trx_type` stretch is the specification's mean embedding, when no code is negative. -/
theorem bag_trx (x1 : (⟨S16384x1024, .i32⟩ : BufTy).Contents (Elt Ideal)) (x5 : (⟨S100x100, .f32⟩ : BufTy).Contents (Elt Ideal))
    (h1 : ∀ i, 0 ≤ (x1 i).toInt) : val_main_v39 (F := Ideal) x1 x5 = Cert.TrxSpec.bagTrx x1 x5 := by
  funext i
  obtain ⟨p, q, rfl⟩ : ∃ (p : Fin 16384) (q : Fin 100), i = ix2 p q := ⟨i 0, i 1, eq_ix2 i⟩
  rw [val_main_v39_apply]
  unfold bagTrx
  refine Finset.sum_congr rfl fun k _ => ?_
  have el : lidx_main_v39 (ix2 p q) k = ix2 p k := funext fun a => by
    match a with
    | ⟨0, _⟩ => rfl
    | ⟨1, _⟩ => rfl
  have er : ridx_main_v39 (ix2 p q) k = ix2 k q := funext fun a => by
    match a with
    | ⟨0, _⟩ => rfl
    | ⟨1, _⟩ => rfl
  rw [el, er, counts_trx x1 h1, counts_eq x1 p k.val]

end Cert.ReferenceIdeal.RefBag

end
-- ==== Proof.RefMean.lean ====
/-
  The reference's ragged mean: column 500 of the result. Reading the reference one operation at a time, row `b` of
  its 16384 × 1 column is the sum over the 1024 positions `t` of `log1p |a| · sign a` times the 0/1 word of the
  signed comparison "t below the row's length", started from the constant 0, divided by the length read as a signed
  integer. That is the specification's `raggedMean`, term by term.
-/
import proofs.«405439_j73753178407534_2_alg».proof.Proof.Gen.ReferenceIdeal.Read
import proofs.«405439_j73753178407534_2_alg».proof.Proof.Spec
import Idealize.ShloMosaic.Lib.ValueIdx
import Idealize.ShloMosaic.PureOps.Ideal.Laws

noncomputable section

namespace Cert.ReferenceIdeal.RefMean

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- A one-bit word read as an unsigned integer and cast to the extended reals is 1 when the bit is set, else 0. -/
theorem ofBool_toNat_cast (c : Bool) :
    (((BitVec.ofBool c).toNat : ℝ) : EReal) = if c = true then 1 else 0 := by
  cases c <;> simp

/-- The 0/1 factor at row `b`, position `t`: the position word `t` compared (signed) below the row's length word. -/
theorem mask_apply (x3 : (⟨S16384, .i32⟩ : BufTy).Contents (Elt Ideal)) (b : Fin 16384) (t : Fin 1024) :
    val_main_v50 (F := Ideal) x3 (ix2 b t) = Cert.TrxSpec.below t.val (x3 (ix1 b)) := by
  have h1 : idx_main_v46 (idx_main_v48 (ix2 b t)) = ix1 b :=
    funext fun a => Fin.ext (by match a with | ⟨0, _⟩ => rfl)
  rw [val_main_v50_apply, val_main_v49_apply, val_main_v47_apply, val_main_v45_apply, val_main_v44_apply,
    val_main_v48_apply, val_main_v46_apply, h1]
  unfold IntOp.cmpi Cert.TrxSpec.below
  exact ofBool_toNat_cast _

/-- The log-scaled amount at row `b`, position `t`. -/
theorem scaled_apply (x2 : (⟨S16384x1024, .f32⟩ : BufTy).Contents (Elt Ideal)) (i : S16384x1024.Idx) :
    val_main_v43 (F := Ideal) x2 i = Cert.TrxSpec.logScaled (x2 i) := by
  rw [val_main_v43_apply, val_main_v41_apply, val_main_v40_apply, val_main_v42_apply]
  simp only [Ideal.mulf_def, Ideal.hostUnary_log1p_def, Ideal.hostUnary_sign_def, Ideal.hostAbsf_def, Ideal.absf_def]
  rfl

/-- The reference's column 500 is the specification's ragged mean. -/
theorem ragged_mean (x2 : (⟨S16384x1024, .f32⟩ : BufTy).Contents (Elt Ideal)) (x3 : (⟨S16384, .i32⟩ : BufTy).Contents (Elt Ideal)) :
    val_main_v55 (F := Ideal) x2 x3 = Cert.TrxSpec.raggedMean x2 x3 := by
  funext i
  obtain ⟨b, z, rfl⟩ : ∃ (b : Fin 16384) (z : Fin 1), i = ix2 b z := ⟨i 0, i 1, eq_ix2 i⟩
  have h0 : idx_main_v55 (ix2 b z) = ix1 b :=
    funext fun a => Fin.ext (by match a with | ⟨0, _⟩ => rfl)
  have hk : ∀ k : Fin 1024, idx_main_v52 (ix1 b) k = ix2 b k := fun k =>
    funext fun a => Fin.ext (by match a with | ⟨0, _⟩ => rfl | ⟨1, _⟩ => rfl)
  rw [val_main_v55_apply, h0, val_main_v54_apply, val_main_v52_apply, val_main_v53_apply, val_main_cst_10_apply]
  simp only [Ideal.hostDivf_def, Ideal.ofBits_def, Ideal.ofBits_zero_f32, zero_add]
  unfold Cert.TrxSpec.raggedMean
  refine congrArg₂ Ideal.div (Finset.sum_congr rfl fun t _ => ?_) rfl
  rw [hk t, val_main_v51_apply, scaled_apply, mask_apply]
  rfl

end Cert.ReferenceIdeal.RefMean

end
-- ==== Proof.PreTokens.lean ====
/-
  The precondition of the certificate, read back for the two token tables. The precondition is the
  conjunction (by `and` of one-bit scalars) of five "all" reductions; the fourth says every word of
  argument 0 compares signed ≥ 0, the fifth the same of argument 1. A one-bit `and` is 1 exactly when
  both operands are; an `and`-reduction over all axes, from 1, is 1 exactly when every element is; and the
  signed comparison "x ≥ 0" is 1 exactly when 0 ≤ x.toInt. Hence every word of both tables is non-negative
  as a signed integer.
-/
import proofs.«405439_j73753178407534_2_alg».proof.Defs
import proofs.«405439_j73753178407534_2_alg».proof.Proof.Gen.Pre_finite_inputs
import Idealize.ShloMosaic.Lib.ReduceAll
import Idealize.ShloMosaic.Lib.ValueIdx

noncomputable section

namespace Cert.Proof.PreTokens

open Idealize.ShloMosaic Idealize.SL.Sem
open Cert.Pre_finite_inputs

/-- The scalar shape has exactly one index. -/
local instance subsingleton_scalar_idx : Subsingleton S_.Idx := ⟨fun a b => funext fun d => d.elim0⟩

/-- The zero word reads 0 as a signed integer. -/
theorem zero_toInt : (0#32 : BitVec 32).toInt = 0 := by decide

/-- An "all" reduction of the comparison "x ≥ 0 (signed)" against the broadcast scalar 0 that came out 1 says
    every word of x is non-negative: the reduction is 1 only if every compared bit is 1, the broadcast of a
    constant reads that constant at every index, and the signed comparison bit is 1 exactly when 0 ≤ x.toInt. -/
theorem all_sge_zero [hP : Cert.Pre_finite_inputs.Facts] (x : IVec S16384x1024 32) (init : IVec S_ 1) (j : S_.Idx)
    (e : Host.reduce IntOp.andi
          (cmpi .sge x (broadcastInDim S16384x1024 ![] hP.bcast_S_S16384x1024 (constantI S_ 32 0#32)))
          init hP.reducesTo_S16384x1024_S_d0_1 hP.h_S_ j = 1#1)
    (i : S16384x1024.Idx) : 0 ≤ (x i).toInt := by
  have hb := Host.reduce_andi_all _ init hP.reducesTo_S16384x1024_S_d0_1 hP.h_S_ j e i
  simp only [cmpi, broadcastInDim, constantI] at hb
  rw [IntOp.cmpi_sge, zero_toInt] at hb
  exact hb

/-- The precondition read back: every word of argument 0 and every word of argument 1 is non-negative signed. -/
theorem tokens_nonneg [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, 0 ≤ (m ((c.tc : Thread Cert.KernelIdeal.nD Cert.KernelIdeal.τ).loc Cert.KernelIdeal.main_arg0) i).toInt)
    ∧ (∀ i, 0 ≤ (m ((c.tc : Thread Cert.KernelIdeal.nD Cert.KernelIdeal.τ).loc Cert.KernelIdeal.main_arg1) i).toInt) := by
  have e := congrFun (h c) ValueIdx.ix0
  dsimp only [Cert.Pre_finite_inputs.fn, Cert.Pre_finite_inputs.fn_part1] at e
  simp only [andi] at e
  rw [IntOp.andi_eq_one, IntOp.andi_eq_one] at e
  obtain ⟨⟨-, h0⟩, h1⟩ := e
  exact ⟨fun i => all_sge_zero _ _ _ h0 i, fun i => all_sge_zero _ _ _ h1 i⟩

end Cert.Proof.PreTokens

end
-- ==== Proof.lean ====
/-
  The certificate's five claims for the transaction-mean encoder kernel against its jnp reference.

  Both programs compute, for each of the 16384 rows, the mean embedding of the row's 1024 `mcc_code`s (a 400-column
  stretch), the mean embedding of its 1024 `trx_type`s (100 columns), and the ragged mean of `log1p |a| · sign a` over
  the first `seq_lens` amounts (one column): `Cert.TrxSpec` (Proof/Spec.lean) states these as plain sums.
  * The kernel counts codes by comparing each token with every column number of a padded one-hot (512 and 128 wide),
    64 positions per loop trip, multiplies the counts by 1/1024 and by the zero-padded weight table, and divides the
    masked sum by the length; the 768-column result is sliced back to 400 + 100 + 1 columns on the host.
  * The reference scatters 1/1024 into a zero count table at (row, token) — after jax's wrap-around of negative
    indices — and multiplies by the table. For a non-negative token both count "token = column"; a token beyond the
    table is dropped by both. The two differ only on negative tokens, which the precondition excludes.
  The three frames: the kernel's two instances by the launch theorem for "host operations, one region, host
  operations" over the body's run (Proof/KBRun.lean, Proof/KIRun.lean); the reference's by its run.
  `preserves`: the ideal pass's five rewrites, each its rule's statement.
-/
import proofs.«405439_j73753178407534_2_alg».proof.Defs
import proofs.«405439_j73753178407534_2_alg».proof.Proof.Gen.Kernel
import proofs.«405439_j73753178407534_2_alg».proof.Proof.Gen.KernelIdeal
import proofs.«405439_j73753178407534_2_alg».proof.Proof.Gen.ReferenceIdeal
import proofs.«405439_j73753178407534_2_alg».proof.Proof.Gen.Pre_finite_inputs
import proofs.«405439_j73753178407534_2_alg».proof.Proof.Gen.ReferenceIdeal.Run
import proofs.«405439_j73753178407534_2_alg».proof.Proof.Gen.ReferenceIdeal.Read
import proofs.«405439_j73753178407534_2_alg».proof.Proof.KBRun
import proofs.«405439_j73753178407534_2_alg».proof.Proof.KIRun
import proofs.«405439_j73753178407534_2_alg».proof.Proof.KIArray
import proofs.«405439_j73753178407534_2_alg».proof.Proof.KIBridge
import proofs.«405439_j73753178407534_2_alg».proof.Proof.RefBag
import proofs.«405439_j73753178407534_2_alg».proof.Proof.RefMean
import proofs.«405439_j73753178407534_2_alg».proof.Proof.PreTokens
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Run.frame m ρ

theorem frame_kernelIdeal : Cert.frame_KernelIdeal := fun m ρ _ => Cert.KernelIdeal.Run.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass's five rewrites: four roundings through bf16 erased (the identity on the extended reals), and
    "1.0 with the sign bit of x" read as −1 below zero and 1 otherwise. -/
theorem preserves : Cert.preserves_Kernel_KernelIdeal :=
  ⟨IdealRules.truncf_extf.statement Cert.KernelIdeal.S128x64x512 .f32 .bf16,
   IdealRules.truncf_extf.statement Cert.KernelIdeal.S128x512 .f32 .bf16,
   IdealRules.truncf_extf.statement Cert.KernelIdeal.S128x64x128 .f32 .bf16,
   IdealRules.truncf_extf.statement Cert.KernelIdeal.S128x128 .f32 .bf16,
   IdealRules.sign_bit.statement Cert.KernelIdeal.S128x64 .f32⟩

/-- Both programs end with the three stretches of the specification side by side. -/
theorem algebraic : Cert.algebraic_KernelIdeal_ReferenceIdeal := by
  intro m ρ m' ρ' hpre hagree
  refine ⟨fun c => concatenate Cert.KernelIdeal.S16384x501 1
      [⟨Cert.KernelIdeal.S16384x400, Cert.TrxSpec.bagMcc (m ((c.tc : Thread Cert.KernelIdeal.nD Cert.KernelIdeal.τ).loc Cert.KernelIdeal.main_arg0)) (m ((c.tc : Thread Cert.KernelIdeal.nD Cert.KernelIdeal.τ).loc Cert.KernelIdeal.main_arg4))⟩,
       ⟨Cert.KernelIdeal.S16384x100, Cert.TrxSpec.bagTrx (m ((c.tc : Thread Cert.KernelIdeal.nD Cert.KernelIdeal.τ).loc Cert.KernelIdeal.main_arg1)) (m ((c.tc : Thread Cert.KernelIdeal.nD Cert.KernelIdeal.τ).loc Cert.KernelIdeal.main_arg5))⟩,
       ⟨Cert.KernelIdeal.S16384x1, Cert.TrxSpec.raggedMean (m ((c.tc : Thread Cert.KernelIdeal.nD Cert.KernelIdeal.τ).loc Cert.KernelIdeal.main_arg2)) (m ((c.tc : Thread Cert.KernelIdeal.nD Cert.KernelIdeal.τ).loc Cert.KernelIdeal.main_arg3))⟩]
      Cert.KernelIdeal.Facts₀.concatenates_S16384x400_S16384x100_S16384x1_S16384x501_d1, ?_, ?_⟩
  · refine (θ_run Cert.KernelIdeal.defs _ _).mono (fun r h c => ⟨(h c).1.trans ?_, (h c).2⟩)
      (Cert.KernelIdeal.ArrayValue.run_value m ρ)
    rw [Cert.KernelIdeal.Bridge.slice_mcc, Cert.KernelIdeal.Bridge.slice_trx, Cert.KernelIdeal.Bridge.slice_mean]
  · have hnn := fun c => Cert.Proof.PreTokens.tokens_nonneg m hpre c
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v56_eq]
    unfold Cert.ReferenceIdeal.Read.val_main_v56
    rw [(hagree c).1, (hagree c).2.1, (hagree c).2.2.1, (hagree c).2.2.2.1, (hagree c).2.2.2.2.1, (hagree c).2.2.2.2.2,
      Cert.ReferenceIdeal.RefBag.bag_mcc _ _ (hnn c).1, Cert.ReferenceIdeal.RefBag.bag_trx _ _ (hnn c).2,
      Cert.ReferenceIdeal.RefMean.ragged_mean]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
